-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S2048x2048 : Shape := ⟨2, ![2048, 2048]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S16777216 .f32) (main_arg1 : FVec F S16777216 .f32) (main_arg2 : FVec F S2048x2048 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Kernel.lean ====
abbrev S16777216 : Shape := ⟨1, ![16777216]⟩
abbrev S2048x2048 : Shape := ⟨2, ![2048, 2048]⟩
abbrev S16777216x1 : Shape := ⟨2, ![16777216, 1]⟩
abbrev S256x1 : Shape := ⟨2, ![256, 1]⟩
abbrev S256x2048 : Shape := ⟨2, ![256, 2048]⟩
abbrev S256 : Shape := ⟨1, ![256]⟩

abbrev nBuf : Space → Nat
  | .hbm => 8
  | .vmem => 7
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S2048x2048, .f32⟩
  | .hbm, ⟨3, _⟩ => ⟨S16777216x1, .f32⟩
  | .hbm, ⟨4, _⟩ => ⟨S16777216x1, .f32⟩
  | .hbm, ⟨5, _⟩ => ⟨S2048x2048, .bf16⟩
  | .hbm, ⟨6, _⟩ => ⟨S16777216x1, .f32⟩
  | .hbm, ⟨7, _⟩ => ⟨S16777216, .f32⟩
  | .local _ .vmem, ⟨0, _⟩ => ⟨S256x1, .f32⟩
  | .local _ .vmem, ⟨1, _⟩ => ⟨S256x1, .f32⟩
  | .local _ .vmem, ⟨2, _⟩ => ⟨S256x1, .f32⟩
  | .local _ .vmem, ⟨3, _⟩ => ⟨S256x1, .f32⟩
  | .local _ .vmem, ⟨4, _⟩ => ⟨S2048x2048, .bf16⟩
  | .local _ .vmem, ⟨5, _⟩ => ⟨S256x1, .f32⟩
  | .local _ .vmem, ⟨6, _⟩ => ⟨S256x1, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![65536], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16777216_S16777216x1 : S16777216.ShapeCasts S16777216x1
  bitsLt_bf16_f32 : FTy.bits .bf16 < FTy.bits .f32
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x2048_d1_w32 : S256x2048.Iotas .tc 32 [1]
  broadcasts_S256x1_S256x2048 : S256x1.Broadcasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  reduces_S256x2048_S256 : S256x2048.Reduces [1] S256
  shapeCasts_S256_S256x1 : S256.ShapeCasts S256x1
  shapeCasts_S16777216x1_S16777216 : S16777216x1.ShapeCasts S16777216
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S16777216x1.size a
  hwx0_0 : ∀ i : grid0.Coords, EltTy.bits .f32 = 32 ∨ (Rect.block (s := S16777216x1) S256x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S16777216x1.size a
  hwx0_1 : ∀ i : grid0.Coords, EltTy.bits .f32 = 32 ∨ (Rect.block (s := S16777216x1) S256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S16777216x1.size a
  hwx0_3 : ∀ i : grid0.Coords, EltTy.bits .f32 = 32 ∨ (Rect.block (s := S16777216x1) S256x1.size (cc0_transform_3 i) (hinb0_3 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_v0) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16777216 : Shape := ⟨1, ![16777216]⟩
abbrev S2048x2048 : Shape := ⟨2, ![2048, 2048]⟩
abbrev S_ : Shape := ⟨0, ![]⟩
abbrev S16777216x1 : Shape := ⟨2, ![16777216, 1]⟩
abbrev S16777216x2 : Shape := ⟨2, ![16777216, 2]⟩

abbrev nBuf : Space → Nat
  | .hbm => 148
  | .vmem => 0
  | .smem => 0
  | _ => 0

abbrev hbmTy0_0 (i : Nat) : BufTy := match i % 128 with
  | 0 => ⟨S16777216, .f32⟩
  | 1 => ⟨S16777216, .f32⟩
  | 2 => ⟨S2048x2048, .f32⟩
  | 3 => ⟨S16777216, .f32⟩
  | 4 => ⟨S16777216, .f32⟩
  | 5 => ⟨S_, .f32⟩
  | 6 => ⟨S16777216, .f32⟩
  | 7 => ⟨S16777216, .f32⟩
  | 8 => ⟨S16777216, .i32⟩
  | 9 => ⟨S_, .i32⟩
  | 10 => ⟨S16777216, .i32⟩
  | 11 => ⟨S16777216, .i32⟩
  | 12 => ⟨S_, .i32⟩
  | 13 => ⟨S16777216, .i32⟩
  | 14 => ⟨S16777216, .i1⟩
  | 15 => ⟨S_, .i32⟩
  | 16 => ⟨S16777216, .i32⟩
  | 17 => ⟨S16777216, .i1⟩
  | 18 => ⟨S16777216, .i1⟩
  | 19 => ⟨S_, .i32⟩
  | 20 => ⟨S16777216, .i32⟩
  | 21 => ⟨S16777216, .i1⟩
  | 22 => ⟨S_, .i32⟩
  | 23 => ⟨S16777216, .i32⟩
  | 24 => ⟨S16777216, .i1⟩
  | 25 => ⟨S16777216, .i1⟩
  | 26 => ⟨S16777216, .f32⟩
  | 27 => ⟨S16777216, .f32⟩
  | 28 => ⟨S_, .f32⟩
  | 29 => ⟨S16777216, .f32⟩
  | 30 => ⟨S16777216, .f32⟩
  | 31 => ⟨S16777216, .i32⟩
  | 32 => ⟨S_, .i32⟩
  | 33 => ⟨S16777216, .i32⟩
  | 34 => ⟨S16777216, .i32⟩
  | 35 => ⟨S_, .i32⟩
  | 36 => ⟨S16777216, .i32⟩
  | 37 => ⟨S16777216, .i1⟩
  | 38 => ⟨S_, .i32⟩
  | 39 => ⟨S16777216, .i32⟩
  | 40 => ⟨S16777216, .i1⟩
  | 41 => ⟨S16777216, .i1⟩
  | 42 => ⟨S_, .i32⟩
  | 43 => ⟨S16777216, .i32⟩
  | 44 => ⟨S16777216, .i1⟩
  | 45 => ⟨S_, .i32⟩
  | 46 => ⟨S16777216, .i32⟩
  | 47 => ⟨S16777216, .i1⟩
  | 48 => ⟨S16777216, .i1⟩
  | 49 => ⟨S16777216, .i1⟩
  | 50 => ⟨S_, .i32⟩
  | 51 => ⟨S16777216, .i32⟩
  | 52 => ⟨S16777216, .i1⟩
  | 53 => ⟨S_, .i32⟩
  | 54 => ⟨S16777216, .i32⟩
  | 55 => ⟨S16777216, .i32⟩
  | 56 => ⟨S16777216, .i32⟩
  | 57 => ⟨S_, .i32⟩
  | 58 => ⟨S16777216, .i32⟩
  | 59 => ⟨S16777216, .i1⟩
  | 60 => ⟨S_, .i32⟩
  | 61 => ⟨S16777216, .i32⟩
  | 62 => ⟨S16777216, .i32⟩
  | 63 => ⟨S16777216, .i32⟩
  | 64 => ⟨S16777216x1, .i32⟩
  | 65 => ⟨S16777216x1, .i32⟩
  | 66 => ⟨S16777216x2, .i32⟩
  | 67 => ⟨S16777216, .f32⟩
  | 68 => ⟨S_, .f32⟩
  | 69 => ⟨S16777216, .f32⟩
  | 70 => ⟨S16777216, .f32⟩
  | 71 => ⟨S16777216, .f32⟩
  | 72 => ⟨S16777216, .f32⟩
  | 73 => ⟨S16777216, .i1⟩
  | 74 => ⟨S_, .i32⟩
  | 75 => ⟨S16777216, .i32⟩
  | 76 => ⟨S16777216, .i1⟩
  | 77 => ⟨S_, .i32⟩
  | 78 => ⟨S16777216, .i32⟩
  | 79 => ⟨S16777216, .i32⟩
  | 80 => ⟨S16777216, .i32⟩
  | 81 => ⟨S_, .i32⟩
  | 82 => ⟨S16777216, .i32⟩
  | 83 => ⟨S16777216, .i1⟩
  | 84 => ⟨S_, .i32⟩
  | 85 => ⟨S16777216, .i32⟩
  | 86 => ⟨S16777216, .i32⟩
  | 87 => ⟨S16777216, .i32⟩
  | 88 => ⟨S16777216x1, .i32⟩
  | 89 => ⟨S16777216x1, .i32⟩
  | 90 => ⟨S16777216x2, .i32⟩
  | 91 => ⟨S16777216, .f32⟩
  | 92 => ⟨S_, .f32⟩
  | 93 => ⟨S16777216, .f32⟩
  | 94 => ⟨S16777216, .f32⟩
  | 95 => ⟨S16777216, .f32⟩
  | 96 => ⟨S16777216, .f32⟩
  | 97 => ⟨S16777216, .i1⟩
  | 98 => ⟨S_, .i32⟩
  | 99 => ⟨S16777216, .i32⟩
  | 100 => ⟨S16777216, .i1⟩
  | 101 => ⟨S_, .i32⟩
  | 102 => ⟨S16777216, .i32⟩
  | 103 => ⟨S16777216, .i32⟩
  | 104 => ⟨S16777216, .i32⟩
  | 105 => ⟨S_, .i32⟩
  | 106 => ⟨S16777216, .i32⟩
  | 107 => ⟨S16777216, .i1⟩
  | 108 => ⟨S_, .i32⟩
  | 109 => ⟨S16777216, .i32⟩
  | 110 => ⟨S16777216, .i32⟩
  | 111 => ⟨S16777216, .i32⟩
  | 112 => ⟨S16777216x1, .i32⟩
  | 113 => ⟨S16777216x1, .i32⟩
  | 114 => ⟨S16777216x2, .i32⟩
  | 115 => ⟨S16777216, .f32⟩
  | 116 => ⟨S_, .f32⟩
  | 117 => ⟨S16777216, .f32⟩
  | 118 => ⟨S16777216, .f32⟩
  | 119 => ⟨S16777216, .f32⟩
  | 120 => ⟨S16777216, .f32⟩
  | 121 => ⟨S16777216, .i1⟩
  | 122 => ⟨S_, .i32⟩
  | 123 => ⟨S16777216, .i32⟩
  | 124 => ⟨S16777216, .i1⟩
  | 125 => ⟨S_, .i32⟩
  | 126 => ⟨S16777216, .i32⟩
  | 127 => ⟨S16777216, .i32⟩
  | _ => ⟨S16777216, .f32⟩

abbrev hbmTy0_1 (i : Nat) : BufTy := match i % 128 with
  | 0 => ⟨S16777216, .i32⟩
  | 1 => ⟨S_, .i32⟩
  | 2 => ⟨S16777216, .i32⟩
  | 3 => ⟨S16777216, .i1⟩
  | 4 => ⟨S_, .i32⟩
  | 5 => ⟨S16777216, .i32⟩
  | 6 => ⟨S16777216, .i32⟩
  | 7 => ⟨S16777216, .i32⟩
  | 8 => ⟨S16777216x1, .i32⟩
  | 9 => ⟨S16777216x1, .i32⟩
  | 10 => ⟨S16777216x2, .i32⟩
  | 11 => ⟨S16777216, .f32⟩
  | 12 => ⟨S_, .f32⟩
  | 13 => ⟨S16777216, .f32⟩
  | 14 => ⟨S16777216, .f32⟩
  | 15 => ⟨S16777216, .f32⟩
  | 16 => ⟨S16777216, .f32⟩
  | 17 => ⟨S16777216, .f32⟩
  | 18 => ⟨S16777216, .f32⟩
  | 19 => ⟨S16777216, .f32⟩
  | _ => ⟨S16777216, .f32⟩

abbrev hbmTy (i : Nat) : BufTy := match i / 128 with
  | 0 => hbmTy0_0 i
  | 1 => hbmTy0_1 i
  | _ => ⟨S16777216, .f32⟩

abbrev bufTy : (tb : Table) → Fin (tcTables nBuf tb) → BufTy
  | .hbm, ⟨i, _⟩ => hbmTy i
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_c : Ref sig .tc := ⟨.hbm, 9, rfl⟩
abbrev main_call0_v5 : Ref sig .tc := ⟨.hbm, 10, rfl⟩
abbrev main_call0_v6 : Ref sig .tc := ⟨.hbm, 11, rfl⟩
abbrev main_call0_c_0 : Ref sig .tc := ⟨.hbm, 12, rfl⟩
abbrev main_call0_v7 : Ref sig .tc := ⟨.hbm, 13, rfl⟩
abbrev main_call0_v8 : Ref sig .tc := ⟨.hbm, 14, rfl⟩
abbrev main_call0_c_1 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_2 : Ref sig .tc := ⟨.hbm, 19, rfl⟩
abbrev main_call0_v12 : Ref sig .tc := ⟨.hbm, 20, rfl⟩
abbrev main_call0_v13 : Ref sig .tc := ⟨.hbm, 21, rfl⟩
abbrev main_call0_c_3 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_v18 : Ref sig .tc := ⟨.hbm, 27, rfl⟩
abbrev main_call0_cst_4 : Ref sig .tc := ⟨.hbm, 28, rfl⟩
abbrev main_call0_v19 : Ref sig .tc := ⟨.hbm, 29, rfl⟩
abbrev main_call0_v20 : Ref sig .tc := ⟨.hbm, 30, rfl⟩
abbrev main_call0_v21 : Ref sig .tc := ⟨.hbm, 31, rfl⟩
abbrev main_call0_c_5 : Ref sig .tc := ⟨.hbm, 32, rfl⟩
abbrev main_call0_v22 : Ref sig .tc := ⟨.hbm, 33, rfl⟩
abbrev main_call0_v23 : Ref sig .tc := ⟨.hbm, 34, rfl⟩
abbrev main_call0_c_6 : Ref sig .tc := ⟨.hbm, 35, rfl⟩
abbrev main_call0_v24 : Ref sig .tc := ⟨.hbm, 36, rfl⟩
abbrev main_call0_v25 : Ref sig .tc := ⟨.hbm, 37, rfl⟩
abbrev main_call0_c_7 : Ref sig .tc := ⟨.hbm, 38, rfl⟩
abbrev main_call0_v26 : Ref sig .tc := ⟨.hbm, 39, rfl⟩
abbrev main_call0_v27 : Ref sig .tc := ⟨.hbm, 40, rfl⟩
abbrev main_call0_v28 : Ref sig .tc := ⟨.hbm, 41, rfl⟩
abbrev main_call0_c_8 : Ref sig .tc := ⟨.hbm, 42, rfl⟩
abbrev main_call0_v29 : Ref sig .tc := ⟨.hbm, 43, rfl⟩
abbrev main_call0_v30 : Ref sig .tc := ⟨.hbm, 44, rfl⟩
abbrev main_call0_c_9 : Ref sig .tc := ⟨.hbm, 45, rfl⟩
abbrev main_call0_v31 : Ref sig .tc := ⟨.hbm, 46, rfl⟩
abbrev main_call0_v32 : Ref sig .tc := ⟨.hbm, 47, rfl⟩
abbrev main_call0_v33 : Ref sig .tc := ⟨.hbm, 48, rfl⟩
abbrev main_call0_v34 : Ref sig .tc := ⟨.hbm, 49, rfl⟩
abbrev main_call0_c_10 : Ref sig .tc := ⟨.hbm, 50, rfl⟩
abbrev main_call0_v35 : Ref sig .tc := ⟨.hbm, 51, rfl⟩
abbrev main_call0_v36 : Ref sig .tc := ⟨.hbm, 52, rfl⟩
abbrev main_call0_c_11 : Ref sig .tc := ⟨.hbm, 53, rfl⟩
abbrev main_call0_v37 : Ref sig .tc := ⟨.hbm, 54, rfl⟩
abbrev main_call0_v38 : Ref sig .tc := ⟨.hbm, 55, rfl⟩
abbrev main_call0_v39 : Ref sig .tc := ⟨.hbm, 56, rfl⟩
abbrev main_call0_c_12 : Ref sig .tc := ⟨.hbm, 57, rfl⟩
abbrev main_call0_v40 : Ref sig .tc := ⟨.hbm, 58, rfl⟩
abbrev main_call0_v41 : Ref sig .tc := ⟨.hbm, 59, rfl⟩
abbrev main_call0_c_13 : Ref sig .tc := ⟨.hbm, 60, rfl⟩
abbrev main_call0_v42 : Ref sig .tc := ⟨.hbm, 61, rfl⟩
abbrev main_call0_v43 : Ref sig .tc := ⟨.hbm, 62, rfl⟩
abbrev main_call0_v44 : Ref sig .tc := ⟨.hbm, 63, rfl⟩
abbrev main_call0_v45 : Ref sig .tc := ⟨.hbm, 64, rfl⟩
abbrev main_call0_v46 : Ref sig .tc := ⟨.hbm, 65, rfl⟩
abbrev main_call0_v47 : Ref sig .tc := ⟨.hbm, 66, rfl⟩
abbrev main_call0_v48 : Ref sig .tc := ⟨.hbm, 67, rfl⟩
abbrev main_call0_cst_14 : Ref sig .tc := ⟨.hbm, 68, rfl⟩
abbrev main_call0_call0_v0 : Ref sig .tc := ⟨.hbm, 69, rfl⟩
abbrev main_call0_v49 : Ref sig .tc := ⟨.hbm, 70, rfl⟩
abbrev main_call0_v50 : Ref sig .tc := ⟨.hbm, 71, rfl⟩
abbrev main_call0_v51 : Ref sig .tc := ⟨.hbm, 72, rfl⟩
abbrev main_call0_v52 : Ref sig .tc := ⟨.hbm, 73, rfl⟩
abbrev main_call0_c_15 : Ref sig .tc := ⟨.hbm, 74, rfl⟩
abbrev main_call0_v53 : Ref sig .tc := ⟨.hbm, 75, rfl⟩
abbrev main_call0_v54 : Ref sig .tc := ⟨.hbm, 76, rfl⟩
abbrev main_call0_c_16 : Ref sig .tc := ⟨.hbm, 77, rfl⟩
abbrev main_call0_v55 : Ref sig .tc := ⟨.hbm, 78, rfl⟩
abbrev main_call0_v56 : Ref sig .tc := ⟨.hbm, 79, rfl⟩
abbrev main_call0_v57 : Ref sig .tc := ⟨.hbm, 80, rfl⟩
abbrev main_call0_c_17 : Ref sig .tc := ⟨.hbm, 81, rfl⟩
abbrev main_call0_v58 : Ref sig .tc := ⟨.hbm, 82, rfl⟩
abbrev main_call0_v59 : Ref sig .tc := ⟨.hbm, 83, rfl⟩
abbrev main_call0_c_18 : Ref sig .tc := ⟨.hbm, 84, rfl⟩
abbrev main_call0_v60 : Ref sig .tc := ⟨.hbm, 85, rfl⟩
abbrev main_call0_v61 : Ref sig .tc := ⟨.hbm, 86, rfl⟩
abbrev main_call0_v62 : Ref sig .tc := ⟨.hbm, 87, rfl⟩
abbrev main_call0_v63 : Ref sig .tc := ⟨.hbm, 88, rfl⟩
abbrev main_call0_v64 : Ref sig .tc := ⟨.hbm, 89, rfl⟩
abbrev main_call0_v65 : Ref sig .tc := ⟨.hbm, 90, rfl⟩
abbrev main_call0_v66 : Ref sig .tc := ⟨.hbm, 91, rfl⟩
abbrev main_call0_cst_19 : Ref sig .tc := ⟨.hbm, 92, rfl⟩
abbrev main_call0_call1_v0 : Ref sig .tc := ⟨.hbm, 93, rfl⟩
abbrev main_call0_v67 : Ref sig .tc := ⟨.hbm, 94, rfl⟩
abbrev main_call0_v68 : Ref sig .tc := ⟨.hbm, 95, rfl⟩
abbrev main_call0_v69 : Ref sig .tc := ⟨.hbm, 96, rfl⟩
abbrev main_call0_v70 : Ref sig .tc := ⟨.hbm, 97, rfl⟩
abbrev main_call0_c_20 : Ref sig .tc := ⟨.hbm, 98, rfl⟩
abbrev main_call0_v71 : Ref sig .tc := ⟨.hbm, 99, rfl⟩
abbrev main_call0_v72 : Ref sig .tc := ⟨.hbm, 100, rfl⟩
abbrev main_call0_c_21 : Ref sig .tc := ⟨.hbm, 101, rfl⟩
abbrev main_call0_v73 : Ref sig .tc := ⟨.hbm, 102, rfl⟩
abbrev main_call0_v74 : Ref sig .tc := ⟨.hbm, 103, rfl⟩
abbrev main_call0_v75 : Ref sig .tc := ⟨.hbm, 104, rfl⟩
abbrev main_call0_c_22 : Ref sig .tc := ⟨.hbm, 105, rfl⟩
abbrev main_call0_v76 : Ref sig .tc := ⟨.hbm, 106, rfl⟩
abbrev main_call0_v77 : Ref sig .tc := ⟨.hbm, 107, rfl⟩
abbrev main_call0_c_23 : Ref sig .tc := ⟨.hbm, 108, rfl⟩
abbrev main_call0_v78 : Ref sig .tc := ⟨.hbm, 109, rfl⟩
abbrev main_call0_v79 : Ref sig .tc := ⟨.hbm, 110, rfl⟩
abbrev main_call0_v80 : Ref sig .tc := ⟨.hbm, 111, rfl⟩
abbrev main_call0_v81 : Ref sig .tc := ⟨.hbm, 112, rfl⟩
abbrev main_call0_v82 : Ref sig .tc := ⟨.hbm, 113, rfl⟩
abbrev main_call0_v83 : Ref sig .tc := ⟨.hbm, 114, rfl⟩
abbrev main_call0_v84 : Ref sig .tc := ⟨.hbm, 115, rfl⟩
abbrev main_call0_cst_24 : Ref sig .tc := ⟨.hbm, 116, rfl⟩
abbrev main_call0_call2_v0 : Ref sig .tc := ⟨.hbm, 117, rfl⟩
abbrev main_call0_v85 : Ref sig .tc := ⟨.hbm, 118, rfl⟩
abbrev main_call0_v86 : Ref sig .tc := ⟨.hbm, 119, rfl⟩
abbrev main_call0_v87 : Ref sig .tc := ⟨.hbm, 120, rfl⟩
abbrev main_call0_v88 : Ref sig .tc := ⟨.hbm, 121, rfl⟩
abbrev main_call0_c_25 : Ref sig .tc := ⟨.hbm, 122, rfl⟩
abbrev main_call0_v89 : Ref sig .tc := ⟨.hbm, 123, rfl⟩
abbrev main_call0_v90 : Ref sig .tc := ⟨.hbm, 124, rfl⟩
abbrev main_call0_c_26 : Ref sig .tc := ⟨.hbm, 125, rfl⟩
abbrev main_call0_v91 : Ref sig .tc := ⟨.hbm, 126, rfl⟩
abbrev main_call0_v92 : Ref sig .tc := ⟨.hbm, 127, rfl⟩
abbrev main_call0_v93 : Ref sig .tc := ⟨.hbm, 128, rfl⟩
abbrev main_call0_c_27 : Ref sig .tc := ⟨.hbm, 129, rfl⟩
abbrev main_call0_v94 : Ref sig .tc := ⟨.hbm, 130, rfl⟩
abbrev main_call0_v95 : Ref sig .tc := ⟨.hbm, 131, rfl⟩
abbrev main_call0_c_28 : Ref sig .tc := ⟨.hbm, 132, rfl⟩
abbrev main_call0_v96 : Ref sig .tc := ⟨.hbm, 133, rfl⟩
abbrev main_call0_v97 : Ref sig .tc := ⟨.hbm, 134, rfl⟩
abbrev main_call0_v98 : Ref sig .tc := ⟨.hbm, 135, rfl⟩
abbrev main_call0_v99 : Ref sig .tc := ⟨.hbm, 136, rfl⟩
abbrev main_call0_v100 : Ref sig .tc := ⟨.hbm, 137, rfl⟩
abbrev main_call0_v101 : Ref sig .tc := ⟨.hbm, 138, rfl⟩
abbrev main_call0_v102 : Ref sig .tc := ⟨.hbm, 139, rfl⟩
abbrev main_call0_cst_29 : Ref sig .tc := ⟨.hbm, 140, rfl⟩
abbrev main_call0_call3_v0 : Ref sig .tc := ⟨.hbm, 141, rfl⟩
abbrev main_call0_v103 : Ref sig .tc := ⟨.hbm, 142, rfl⟩
abbrev main_call0_v104 : Ref sig .tc := ⟨.hbm, 143, rfl⟩
abbrev main_call0_v105 : Ref sig .tc := ⟨.hbm, 144, rfl⟩
abbrev main_call0_v106 : Ref sig .tc := ⟨.hbm, 145, rfl⟩
abbrev main_call0_v107 : Ref sig .tc := ⟨.hbm, 146, rfl⟩
abbrev main_v0 : Ref sig .tc := ⟨.hbm, 147, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  concatenates_S16777216x1_S16777216x1_S16777216x2_d1 : Shape.Concatenates [S16777216x1, S16777216x1] S16777216x2 1
  gather_S2048x2048_S16777216x2_S16777216_n_01_n_n_01_1_11_wf : GatherDims.WF S2048x2048 S16777216x2 S16777216 [] [0, 1] [] [0, 1] [] 1 ![1, 1]

variable [Facts₀]

def gather_S2048x2048_S16777216x2_S16777216_n_01_n_n_01_1_11 : GatherDims S2048x2048 S16777216x2 S16777216 where
  offsetDims := []
  collapsedSliceDims := [0, 1]
  operandBatchingDims := []
  startIndicesBatchingDims := []
  startIndexMap := [0, 1]
  indexVectorDim := 1
  sliceSizes := ![1, 1]
  wf := gather_S2048x2048_S16777216x2_S16777216_n_01_n_n_01_1_11_wf

class Facts : Prop extends Facts₀ where

variable [Facts]
-- ==== Proof.Spec.lean ====
/-
  Bilinear interpolation in a 2048 × 2048 table, written two ways.

  A query has two coordinates. Each coordinate x has a cell ⌊x⌋, read as a 32-bit integer, a fractional part
  x − ⌊x⌋ (the weight of the next cell) and its complement 1 − (x − ⌊x⌋) (the weight of the cell itself).

  * The four-tap form adds, over the four corners (cell or next cell on each axis), the product of the two weights
    with the table's entry at the corner, an entry being counted only when both of its integer coordinates lie in
    0 … 2047 (a corner off the table contributes 0).
  * The one-hot form lays each axis' two weights out along a line of 2048 places — the cell's weight at the place the
    cell names, the next cell's at the next, 0 elsewhere (no place at all when the integer is off the table) —,
    multiplies the row line into the table and sums the result against the column line.

  For finite coordinates and a finite table the two are one number: a line with at most two nonzero places picks at
  most two entries out of any sum, and the product of the two picks expands into the four corners. The expansion is
  distributivity, which the extended reals have only at finite values, so the statement is proved over ℝ and carried
  back.
-/
import Idealize.ShloMosaic.PureOps.Ideal.Laws
import Idealize.ShloMosaic.Lib.ValueIdx

noncomputable section

namespace Cert.Bilinear

open Idealize.ShloMosaic Idealize.ShloMosaic.ValueIdx
open scoped BigOperators

/-- The table's shape. -/
abbrev Tab : Shape := ⟨2, ![2048, 2048]⟩

/-! ## One coordinate -/

def one : EReal := Ideal.ofBits .f32 0x3F800000#32
def zero : EReal := Ideal.ofBits .f32 0x00000000#32
/-- The integer below. -/
def flo (x : EReal) : EReal := Ideal.liftRound Int.floor x
/-- The fractional part: the weight of the next cell. -/
def frac (x : EReal) : EReal := x - flo x
/-- Its complement: the weight of the cell. -/
def comp (x : EReal) : EReal := one - frac x
/-- The cell, as a 32-bit integer. -/
def cell (x : EReal) : BitVec 32 := Ideal.fptosi 32 (flo x)
/-- The next cell (the sum wraps, as 32-bit addition does). -/
def next (x : EReal) : BitVec 32 := IntOp.addi (cell x) 1#32

/-! ## The one-hot form -/

/-- A coordinate's two weights laid out along a line of 2048 places. -/
def hat (x : EReal) (k : Fin 2048) : EReal :=
  Scalar.select (IntOp.cmpi .eq (BitVec.ofNat 32 k.val) (cell x)) (comp x) zero
    + Scalar.select (IntOp.cmpi .eq (BitVec.ofNat 32 k.val) (next x)) (frac x) zero

/-- Row line times table, summed against the column line. -/
def oneHot (x t : EReal) (W : Tab.Idx → EReal) : EReal :=
  ∑ c : Fin 2048, (∑ r : Fin 2048, hat x r * W (ix2 r c)) * hat t c

/-! ## The four-tap form -/

/-- A 32-bit integer lies in 0 … 2047, as the conjunction of two signed comparisons. -/
def valid (i : BitVec 32) : BitVec 1 := IntOp.andi (IntOp.cmpi .sge i 0#32) (IntOp.cmpi .slt i 2048#32)
/-- A negative integer counted from the table's end. -/
def wrap (i : BitVec 32) : BitVec 32 := Scalar.select (IntOp.cmpi .slt i 0#32) (IntOp.addi i 2048#32) i
/-- The table line an integer is clamped to. -/
def pick (i : BitVec 32) : Fin 2048 := ⟨min (wrap i).toInt.toNat 2047, by omega⟩
/-- One corner: the two weights' product times the table's entry, 0 for a corner off the table. -/
def tap (W : Tab.Idx → EReal) (a b : EReal) (i j : BitVec 32) : EReal :=
  (a * b) * Scalar.select (IntOp.andi (valid i) (valid j)) (W (ix2 (pick i) (pick j))) zero
/-- The four corners, added left to right. -/
def fourTap (x t : EReal) (W : Tab.Idx → EReal) : EReal :=
  ((tap W (comp x) (comp t) (cell x) (cell t) + tap W (comp x) (frac t) (cell x) (next t))
    + tap W (frac x) (comp t) (next x) (cell t)) + tap W (frac x) (frac t) (next x) (next t)

/-! ## Words -/

theorem zero_eq : zero = 0 := Ideal.ofBits_zero_f32
theorem one_eq : one = ((1 : ℝ) : EReal) := by
  unfold one; simp [Ideal.ofBits, Ideal.ieee, -EReal.coe_mul]; norm_num

theorem ofBool_eq_one (b : Bool) : BitVec.ofBool b = 1 ↔ b = true := by cases b <;> decide

/-- The place k's word equals the integer i exactly when i, read unsigned, is k. -/
theorem cmpi_eq_iff (k : Fin 2048) (i : BitVec 32) : IntOp.cmpi .eq (BitVec.ofNat 32 k.val) i = 1 ↔ i.toNat = k.val := by
  have hk : k.val < 2 ^ 32 := lt_trans k.isLt (by norm_num)
  unfold IntOp.cmpi
  rw [ofBool_eq_one]
  constructor
  · intro h
    have h' : BitVec.ofNat 32 k.val = i := eq_of_beq h
    rw [← h', BitVec.toNat_ofNat, Nat.mod_eq_of_lt hk]
  · intro h
    have h' : BitVec.ofNat 32 k.val = i := BitVec.eq_of_toNat_eq (by rw [BitVec.toNat_ofNat, Nat.mod_eq_of_lt hk, h])
    rw [h']; exact beq_self_eq_true i

/-- The two signed comparisons say that i, read unsigned, is below 2048. -/
theorem valid_iff (i : BitVec 32) : valid i = 1 ↔ i.toNat < 2048 := by
  unfold valid IntOp.andi IntOp.cmpi
  have e : ∀ a b : Bool, (BitVec.ofBool a &&& BitVec.ofBool b = 1) ↔ (a = true ∧ b = true) := by decide
  rw [e]
  simp only [BitVec.sle, BitVec.slt, decide_eq_true_eq]
  have h0 : (0#32 : BitVec 32).toInt = 0 := by decide
  have h1 : (2048#32 : BitVec 32).toInt = 2048 := by decide
  rw [h0, h1, BitVec.toInt_eq_toNat_cond]
  have := i.isLt
  split <;> omega

/-- An integer in 0 … 2047 is its own table line. -/
theorem pick_of_valid (i : BitVec 32) (h : i.toNat < 2048) : pick i = ⟨i.toNat, h⟩ := by
  have hneg : IntOp.cmpi .slt i 0#32 ≠ 1 := by
    unfold IntOp.cmpi
    rw [Ne, ofBool_eq_one]
    simp only [BitVec.slt, decide_eq_true_eq]
    have h0 : (0#32 : BitVec 32).toInt = 0 := by decide
    rw [h0, BitVec.toInt_eq_toNat_cond]
    split <;> omega
  have hw : wrap i = i := by unfold wrap Scalar.select; rw [if_neg hneg]
  apply Fin.ext
  show min (wrap i).toInt.toNat 2047 = i.toNat
  rw [hw, BitVec.toInt_eq_toNat_cond]
  split <;> omega

/-! ## Picking an entry out of a line, over ℝ -/

/-- The entry of a real line at the place a 32-bit integer names; 0 when it names none. -/
def pickR (i : BitVec 32) (f : Fin 2048 → ℝ) : ℝ := if h : i.toNat < 2048 then f ⟨i.toNat, h⟩ else 0

theorem pickR_lin (i : BitVec 32) (a a' : ℝ) (f g : Fin 2048 → ℝ) :
    pickR i (fun c => a * f c + a' * g c) = a * pickR i f + a' * pickR i g := by
  unfold pickR; split <;> simp

/-- A line that is a at the place i names and 0 elsewhere, summed against f, is a times f's entry there. -/
theorem sum_ite_pickR (i : BitVec 32) (a : ℝ) (f : Fin 2048 → ℝ) :
    ∑ r : Fin 2048, (if i.toNat = r.val then a else 0) * f r = a * pickR i f := by
  unfold pickR
  split
  · next h =>
    rw [Finset.sum_eq_single (⟨i.toNat, h⟩ : Fin 2048)]
    · simp
    · intro b _ hb
      rw [if_neg (fun e => hb (Fin.ext e.symm)), zero_mul]
    · intro hn; exact absurd (Finset.mem_univ _) hn
  · next h =>
    rw [mul_zero]
    refine Finset.sum_eq_zero fun r _ => ?_
    rw [if_neg (fun e : i.toNat = r.val => h (by rw [e]; exact r.isLt)), zero_mul]

/-- The coercion of a finite sum of reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A weight line over ℝ: a at the place i names, a' at the place i' names. -/
def hatR (i i' : BitVec 32) (a a' : ℝ) (k : Fin 2048) : ℝ :=
  (if i.toNat = k.val then a else 0) + (if i'.toNat = k.val then a' else 0)

theorem sum_hatR (i i' : BitVec 32) (a a' : ℝ) (f : Fin 2048 → ℝ) :
    ∑ r : Fin 2048, hatR i i' a a' r * f r = a * pickR i f + a' * pickR i' f := by
  unfold hatR
  simp only [add_mul, Finset.sum_add_distrib, sum_ite_pickR]

/-- The same with the line on the right of each product. -/
theorem sum_mul_hatR (i i' : BitVec 32) (a a' : ℝ) (f : Fin 2048 → ℝ) :
    ∑ r : Fin 2048, f r * hatR i i' a a' r = a * pickR i f + a' * pickR i' f := by
  rw [← sum_hatR]
  exact Finset.sum_congr rfl fun r _ => mul_comm _ _

/-- A select between a real and the zero word is the real chosen. -/
theorem select_coe (i : BitVec 32) (k : Fin 2048) (a : ℝ) :
    Scalar.select (IntOp.cmpi .eq (BitVec.ofNat 32 k.val) i) (a : EReal) zero = ((if i.toNat = k.val then a else 0 : ℝ) : EReal) := by
  unfold Scalar.select
  by_cases h : i.toNat = k.val
  · rw [if_pos ((cmpi_eq_iff k i).mpr h), if_pos h]
  · rw [if_neg (fun e => h ((cmpi_eq_iff k i).mp e)), if_neg h, zero_eq, EReal.coe_zero]

/-! ## The two forms agree -/

section Agree

variable (rx rt : ℝ) (w : Tab.Idx → ℝ)

theorem flo_coe : flo (rx : EReal) = ((⌊rx⌋ : ℝ) : EReal) := rfl
theorem frac_coe : frac (rx : EReal) = ((rx - ⌊rx⌋ : ℝ) : EReal) := by
  unfold frac; rw [flo_coe, ← EReal.coe_sub]
theorem comp_coe : comp (rx : EReal) = ((1 - (rx - ⌊rx⌋) : ℝ) : EReal) := by
  unfold comp; rw [frac_coe, one_eq, ← EReal.coe_sub]

theorem hat_coe (k : Fin 2048) :
    hat (rx : EReal) k = ((hatR (cell rx) (next rx) (1 - (rx - ⌊rx⌋)) (rx - ⌊rx⌋) k : ℝ) : EReal) := by
  unfold hat hatR
  rw [comp_coe, frac_coe, select_coe, select_coe, ← EReal.coe_add]

theorem oneHot_coe :
    oneHot (rx : EReal) (rt : EReal) (fun i => (w i : EReal))
      = ((∑ c : Fin 2048, (∑ r : Fin 2048, hatR (cell rx) (next rx) (1 - (rx - ⌊rx⌋)) (rx - ⌊rx⌋) r * w (ix2 r c))
            * hatR (cell rt) (next rt) (1 - (rt - ⌊rt⌋)) (rt - ⌊rt⌋) c : ℝ) : EReal) := by
  unfold oneHot
  rw [coe_sum]
  refine Finset.sum_congr rfl fun c _ => ?_
  rw [EReal.coe_mul, coe_sum, hat_coe]
  refine congrArg (fun z => z * _) (Finset.sum_congr rfl fun r _ => ?_)
  rw [hat_coe, EReal.coe_mul]

theorem tap_coe (a b : ℝ) (i j : BitVec 32) :
    tap (fun i => (w i : EReal)) (a : EReal) (b : EReal) i j
      = (((a * b) * pickR j (fun c => pickR i (fun r => w (ix2 r c))) : ℝ) : EReal) := by
  unfold tap Scalar.select IntOp.andi
  have e : ∀ u v : BitVec 1, (u &&& v = 1) ↔ (u = 1 ∧ v = 1) := by decide
  by_cases hi : i.toNat < 2048
  · by_cases hj : j.toNat < 2048
    · rw [if_pos ((e _ _).mpr ⟨(valid_iff i).mpr hi, (valid_iff j).mpr hj⟩), pick_of_valid i hi, pick_of_valid j hj]
      unfold pickR
      simp only [dif_pos hi, dif_pos hj]
      rw [EReal.coe_mul, EReal.coe_mul]
    · rw [if_neg (fun h => hj ((valid_iff j).mp ((e _ _).mp h).2))]
      unfold pickR
      rw [dif_neg hj, zero_eq, mul_zero, mul_zero, EReal.coe_zero]
  · rw [if_neg (fun h => hi ((valid_iff i).mp ((e _ _).mp h).1))]
    have : pickR j (fun c => pickR i (fun r => w (ix2 r c))) = 0 := by
      simp [pickR, hi]
    rw [this, zero_eq, mul_zero, mul_zero, EReal.coe_zero]

/-- THE LAW. For finite coordinates and a finite table, the four corners are the two lines' double sum. -/
theorem fourTap_eq_oneHot_coe :
    fourTap (rx : EReal) (rt : EReal) (fun i => (w i : EReal)) = oneHot (rx : EReal) (rt : EReal) (fun i => (w i : EReal)) := by
  rw [oneHot_coe]
  unfold fourTap
  rw [comp_coe, comp_coe, frac_coe, frac_coe, tap_coe, tap_coe, tap_coe, tap_coe, ← EReal.coe_add, ← EReal.coe_add, ← EReal.coe_add]
  congr 1
  simp only [sum_hatR, sum_mul_hatR, pickR_lin]
  ring

end Agree

theorem fourTap_eq_oneHot (x t : EReal) (W : Tab.Idx → EReal) (hx : ∃ r : ℝ, x = r) (ht : ∃ r : ℝ, t = r)
    (hW : ∀ i, ∃ r : ℝ, W i = r) : fourTap x t W = oneHot x t W := by
  obtain ⟨rx, rfl⟩ := hx
  obtain ⟨rt, rfl⟩ := ht
  choose w hw using hW
  obtain rfl : W = fun i => (w i : EReal) := funext hw
  exact fourTap_eq_oneHot_coe rx rt w

/-! ## All queries -/

/-- The query arrays' shape. -/
abbrev Qs : Shape := ⟨1, ![16777216]⟩

/-- The result array by the one-hot form: query q interpolates at (X q, T q). -/
def viaLines (X T : Qs.Idx → EReal) (W : Tab.Idx → EReal) : Qs.Idx → EReal := fun q => oneHot (X q) (T q) W
/-- The result array by the four-tap form. -/
def viaTaps (X T : Qs.Idx → EReal) (W : Tab.Idx → EReal) : Qs.Idx → EReal := fun q => fourTap (X q) (T q) W

/-- On finite coordinates and a finite table the two result arrays are one. -/
theorem viaTaps_eq_viaLines (X T : Qs.Idx → EReal) (W : Tab.Idx → EReal) (hX : ∀ q, ∃ r : ℝ, X q = r)
    (hT : ∀ q, ∃ r : ℝ, T q = r) (hW : ∀ i, ∃ r : ℝ, W i = r) : viaTaps X T W = viaLines X T W :=
  funext fun q => fourTap_eq_oneHot (X q) (T q) W (hX q) (hT q) hW

end Cert.Bilinear

end
-- ==== Proof.Finite.lean ====
/-
  Finite inputs are real numbers.

  The precondition is the conjunction of three tests, one per argument array: every entry's absolute value is below +∞.
  An extended real whose absolute value max(x, −x) is below +∞ is neither infinity, so it is a real number. Each test is an
  "and" over all entries that came out true, so every entry passed it.
-/
import proofs.«103338_j71270687310572_1_alg».proof.Proof.Gen.Pre_finite_inputs
import Idealize.ShloMosaic.PureOps.Ideal.Laws
import Idealize.ShloMosaic.Lib.ReduceAll
import Idealize.ShloMosaic.Lib.ValueIdx

noncomputable section

namespace Cert.Finite

open Idealize.ShloMosaic Idealize.ShloMosaic.ValueIdx Cert.Pre_finite_inputs

instance : Subsingleton S_.Idx := ⟨fun _ _ => funext fun d => d.elim0⟩

/-- The word 0x7F800000 is +∞. -/
theorem inf_word : Ideal.ofBits .f32 0x7F800000#32 = ⊤ := by simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ r : ℝ, x = r := by
  rw [inf_word] at h
  unfold Ideal.cmp at h
  have hlt : max x (-x) < ⊤ := by
    by_contra hn
    simp only [hn, decide_false] at h
    exact absurd h (by decide)
  induction x using EReal.rec with
  | bot => simp at hlt
  | top => simp at hlt
  | coe r => exact ⟨r, rfl⟩

/-- Under the precondition every entry of the two coordinate arrays and of the table is a real number. -/
theorem of_pre (X T : FVec Ideal S16777216 .f32) (W : FVec Ideal S2048x2048 .f32)
    (h : Cert.Pre_finite_inputs.fn (F := Ideal) X T W = fun _ => 1#1) :
    (∀ q, ∃ r : ℝ, X q = r) ∧ (∀ q, ∃ r : ℝ, T q = r) ∧ (∀ i, ∃ r : ℝ, W i = r) := by
  have h0 := congrFun h ix0
  dsimp only [Cert.Pre_finite_inputs.fn] at h0
  obtain ⟨h12, h3⟩ := IntOp.andi_eq_one.1 h0
  obtain ⟨h1, h2⟩ := IntOp.andi_eq_one.1 h12
  refine ⟨fun q => ?_, fun q => ?_, fun i => ?_⟩
  · exact real_of_abs_lt _ (Host.reduce_andi_all _ _ _ _ _ h1 q)
  · exact real_of_abs_lt _ (Host.reduce_andi_all _ _ _ _ _ h2 q)
  · exact real_of_abs_lt _ (Host.reduce_andi_all _ _ _ _ _ h3 i)

end Cert.Finite

end
-- ==== Proof.LibRowOps.lean ====
/-
  Two-axis operations read at a row and a column.

  General facts about arrays with two axes, written over indices `ix2 r c` with literal-typed coordinates, at the
  extended reals where arithmetic is involved:
  * a plain matrix product `[M, K] × [K, N]` into a zero accumulator is, at `(r, c)`, the sum over `k` of the left
    operand at `(r, k)` times the right at `(k, c)`;
  * a sum over the second axis of an `[R, n]` array is, at `r`, the sum over `k` of the array at `(r, k)`;
  * a one-axis array `[a]` cast to a column `[a, 1]` reads its entry `r`; a column `[a, 1]` broadcast to `[a, b]`
    reads the column's entry in the same row;
  * two arrays joined along the second axis read the first where the column falls inside it and the second, the first's
    width less, elsewhere.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx
open scoped BigOperators

/-! ## A plain matrix product -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (M K N : ℕ) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (M K N : ℕ) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction index of a plain product, re-indexed by the one contracted coordinate. -/
theorem plain_sum (M K N : ℕ) (a : (⟨2, ![M, K]⟩ : Shape).Idx → EReal) (b : (⟨2, ![K, N]⟩ : Shape).Idx → EReal)
    (r : Fin M) (c : Fin N) :
    ∑ k : (DotDims.plain M K N).contr.Idx,
        a ((DotDims.plain M K N).lhsIdx (ix2 r c) k) * b ((DotDims.plain M K N).rhsIdx (ix2 r c) k)
      = ∑ k : Fin K, a (ix2 r k) * b (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun ax => Fin.ext (by
      match ax with
      | ⟨0, _⟩ => exact plain_lhs0 M K N _ _
      | ⟨1, _⟩ => exact (plain_lhs1 M K N _ _).trans hk)
  have er : (DotDims.plain M K N).rhsIdx (ix2 r c) ((contrEquiv1 (DotDims.plain M K N) K rfl rfl).symm k) = ix2 k c :=
    funext fun ax => Fin.ext (by
      match ax with
      | ⟨0, _⟩ => exact (plain_rhs0 M K N _ _).trans hk
      | ⟨1, _⟩ => exact plain_rhs1 M K N _ _)
  rw [el, er]

/-- A matrix product with plain dimension numbers into the zero accumulator, at `(r, c)`: `Σₖ a (r, k) · b (k, c)`.
    The dimension record may be any whose data are the plain ones (`hD`, by `rfl` for a printed record). -/
theorem matmul_plain_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (r : Fin M) (c : Fin N) :
    matmul D prec a b (constant ⟨2, ![M, N]⟩ .f32 0x00000000#32) (ix2 r c) = ∑ k : Fin K, a (ix2 r k) * b (ix2 k c) := by
  subst hD
  exact (Ideal.matmul_constant_zero_apply (DotDims.plain M K N) prec a b (ix2 r c)).trans (plain_sum M K N a b r c)

/-! ## A sum along the second axis -/

/-- A float sum over axis 1 of an `[R, n]` array from the zero word, at `r`: `Σₖ x (r, k)`. -/
theorem multiReduction_add_rows {R n : ℕ} {φ : FTy} (x : FVec Ideal ⟨2, ![R, n]⟩ φ) (acc : BitVec φ.bits)
    (h : (⟨2, ![R, n]⟩ : Shape).Reduces [1] ⟨1, ![R]⟩) (hφ : FKind.Formats φ) (hacc : acc = FKind.add.neutral φ hφ) (r : Fin R) :
    multiReduction .add [1] ⟨1, ![R]⟩ x acc h hφ hacc (ix1 r) = ∑ k : Fin n, x (ix2 r k) := by
  refine (Ideal.multiReduction_add_single x acc h hφ hacc (ix1 r)).trans ?_
  refine Finset.sum_congr rfl fun k _ => congrArg x (funext fun ax => Fin.ext ?_)
  match ax with
  | ⟨0, _⟩ => rfl
  | ⟨1, _⟩ => rfl

/-! ## Columns -/

variable {α : Type}

/-- An `[a]` array cast to a column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column's entry in row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-! ## Two arrays side by side -/

/-- Two arrays `[R, a]` and `[R, b]` joined along axis 1 into `[R, c]`, at `(r, k)`: the first at `(r, k)` when `k < a`,
    else the second at `(r, k - a)`. -/
theorem concatenate_cols_apply {R a b c : ℕ} (x₁ : (⟨2, ![R, a]⟩ : Shape).Idx → α) (x₂ : (⟨2, ![R, b]⟩ : Shape).Idx → α)
    (h : Shape.Concatenates [⟨2, ![R, a]⟩, ⟨2, ![R, b]⟩] ⟨2, ![R, c]⟩ 1) (hc : c = a + b) (r : Fin R) (k : Fin c) :
    concatenate ⟨2, ![R, c]⟩ 1 [⟨⟨2, ![R, a]⟩, x₁⟩, ⟨⟨2, ![R, b]⟩, x₂⟩] h (ix2 r k)
      = if hk : k.val < a then x₁ (ix2 r ⟨k.val, hk⟩) else x₂ (ix2 r ⟨k.val - a, by omega⟩) := by
  split
  · next hk =>
    refine concatenate_pair_apply_left 1 x₁ x₂ h (ix2 r k) rfl (ix2 r ⟨k.val, hk⟩) fun ax => ?_
    match ax with
    | ⟨0, _⟩ => rfl
    | ⟨1, _⟩ => rfl
  · next hk =>
    refine concatenate_pair_apply_right 1 x₁ x₂ h (ix2 r k) rfl rfl (ix2 r ⟨k.val - a, by omega⟩) (fun ax hne => ?_) ?_
    · match ax with
      | ⟨0, _⟩ => rfl
      | ⟨1, _⟩ => exact absurd rfl hne
    · show k.val - a + a = k.val
      omega

end Cert.RowOps

end
-- ==== Proof.KernelPayload.lean ====
/-
  The kernel body's arithmetic at one row of a block.

  A block holds 256 queries, one per row, each with a row coordinate x and a column coordinate t. For one coordinate the
  body builds a line of 2048 places: the complement of the fractional part where the lane counter meets the cell, plus
  the fractional part where it meets the next cell, zero elsewhere. The row line is multiplied into the whole table
  (a plain matrix product, the change of format on its way being the identity on extended reals), the result is
  multiplied place by place with the column line, and the 2048 places of a row are summed. At row p that is the
  one-hot form of the interpolation at (x p, t p).
-/
import proofs.«103338_j71270687310572_1_alg».proof.Proof.Gen.KernelIdeal.Skeleton
import proofs.«103338_j71270687310572_1_alg».proof.Proof.Spec
import proofs.«103338_j71270687310572_1_alg».proof.Proof.LibRowOps

noncomputable section

namespace Cert.KernelIdeal.KPayload

open Cert.KernelIdeal Cert.KernelIdeal.Gen Idealize.ShloMosaic Idealize.ShloMosaic.ValueIdx Cert.Bilinear Cert.RowOps
open scoped BigOperators

/-! ## One coordinate's line -/

/-- The lane counter along the second axis reads, at (p, k), the place k as a 32-bit integer. -/
theorem lane_apply (p : Fin 256) (k : Fin 2048) :
    iota .tc S256x2048 32 [1] iota_S256x2048_d1_w32 (ix2 p k) = BitVec.ofNat 32 k.val :=
  iota_single_apply .tc S256x2048 32 1 iota_S256x2048_d1_w32 (ix2 p k)

/-- One masked weight: a column of weights spread along the rows and kept only where the lane counter equals a column of
    integers, at (p, k): the weight of row p if k is that row's integer, else zero. -/
theorem masked_apply (n : IVec S256x1 32) (w : FVec Ideal S256x1 .f32) (p : Fin 256) (k : Fin 2048) :
    select (cmpi .eq (iota .tc S256x2048 32 [1] iota_S256x2048_d1_w32) (broadcastTo S256x2048 n broadcasts_S256x1_S256x2048))
        (broadcastTo S256x2048 w broadcasts_S256x1_S256x2048)
        (broadcast S256x2048 (Scalar.ofBits (F := Ideal) .f32 0x00000000#32)) (ix2 p k)
      = Scalar.select (IntOp.cmpi .eq (BitVec.ofNat 32 k.val) (n (ix2 p (0 : Fin 1)))) (w (ix2 p (0 : Fin 1))) zero := by
  show Scalar.select (IntOp.cmpi .eq (iota .tc S256x2048 32 [1] iota_S256x2048_d1_w32 (ix2 p k))
      (broadcastTo S256x2048 n broadcasts_S256x1_S256x2048 (ix2 p k)))
      (broadcastTo S256x2048 w broadcasts_S256x1_S256x2048 (ix2 p k)) (Scalar.ofBits (F := Ideal) .f32 0x00000000#32) = _
  rw [lane_apply, broadcastTo_a1_ab_apply, broadcastTo_a1_ab_apply]
  rfl

/-- A coordinate's line as the body builds it from the column x of coordinates, at (p, k): the two weights of x p laid
    out along the line, read at place k. -/
theorem line_apply (x : FVec Ideal S256x1 .f32) (p : Fin 256) (k : Fin 2048) :
    addf
      (select (cmpi .eq (iota .tc S256x2048 32 [1] iota_S256x2048_d1_w32)
          (broadcastTo S256x2048 (fptosi 32 (floor x)) broadcasts_S256x1_S256x2048))
        (broadcastTo S256x2048 (subf (broadcast S256x1 (Scalar.ofBits (F := Ideal) .f32 0x3F800000#32)) (subf x (floor x)))
          broadcasts_S256x1_S256x2048)
        (broadcast S256x2048 (Scalar.ofBits (F := Ideal) .f32 0x00000000#32)))
      (select (cmpi .eq (iota .tc S256x2048 32 [1] iota_S256x2048_d1_w32)
          (broadcastTo S256x2048 (addi (fptosi 32 (floor x)) (broadcast S256x1 1#32)) broadcasts_S256x1_S256x2048))
        (broadcastTo S256x2048 (subf x (floor x)) broadcasts_S256x1_S256x2048)
        (broadcast S256x2048 (Scalar.ofBits (F := Ideal) .f32 0x00000000#32))) (ix2 p k)
      = hat (x (ix2 p (0 : Fin 1))) k :=
  (addf_apply _ _ _).trans (congrArg₂ (· + ·) (masked_apply _ _ p k) (masked_apply _ _ p k))

/-! ## The row line times the table -/

/-- The body's matrix product at (p, c): the row line of x p against column c of the table. -/
theorem prod_apply (x0 : Vec Ideal S256x1 .f32) (x2 : Vec Ideal S2048x2048 .bf16) (p : Fin 256) (c : Fin 2048) :
    k0_pay6 x0 x2 (ix2 p c) = ∑ r : Fin 2048, hat (x0 (ix2 p (0 : Fin 1))) r * x2 (ix2 r c) := by
  unfold k0_pay6
  simp only [shapeCast_self]
  refine Eq.trans (matmul_plain_apply (φ₁ := .bf16) (φ₂ := .bf16) dot_S256x2048_S2048x2048_S256x2048_1_0_0_1_n_n rfl none _ _ p c) ?_
  refine Finset.sum_congr rfl fun r _ => ?_
  exact congrArg₂ (· * ·) (line_apply x0 p r) rfl

/-! ## The column line -/

/-- The column line as the body assembles it from its parts, at (p, c): the two weights of t p, read at place c. -/
theorem col_apply (x1 : Vec Ideal S256x1 .f32) (p : Fin 256) (c : Fin 2048) :
    addf (k0_pay7 x1)
      (select (k0_pay8 x1) (broadcastTo S256x2048 (shapeCast S256x1 (k0_pay4 x1) shapeCasts_S256x1_S256x1) broadcasts_S256x1_S256x2048)
        (broadcast S256x2048 (Scalar.ofBits (F := Ideal) .f32 0x00000000#32))) (ix2 p c)
      = hat (x1 (ix2 p (0 : Fin 1))) c := by
  unfold k0_pay7 k0_pay8 k0_pay5 k0_pay4 k0_pay3 k0_pay2
  simp only [shapeCast_self]
  exact line_apply x1 p c

/-! ## The whole payload -/

/-- What the body stores at row p of its output block: the one-hot form of the interpolation at the row's two loaded
    coordinates in the loaded table. -/
theorem payload_apply (x0 x1 : Vec Ideal S256x1 .f32) (x2 : Vec Ideal S2048x2048 .bf16) (p : Fin 256) (u : Fin 1) :
    k0_pay1 (k0_pay4 x1) (k0_pay6 x0 x2) (k0_pay7 x1) (k0_pay8 x1) (Scalar.ofBits (F := Ideal) .f32 0x00000000#32) (ix2 p u)
      = oneHot (x0 (ix2 p (0 : Fin 1))) (x1 (ix2 p (0 : Fin 1))) x2 := by
  unfold k0_pay1
  refine Eq.trans (shapeCast_a_a1_apply _ _ p u) ?_
  refine Eq.trans (multiReduction_add_rows (φ := .f32) _ _ _ _ _ p) ?_
  unfold oneHot
  refine Finset.sum_congr rfl fun c _ => ?_
  exact Eq.trans (mulf_apply (φ := .f32) _ _ _) (congrArg₂ (· * ·) (prod_apply x0 x2 p c) (col_apply x1 p c))

end Cert.KernelIdeal.KPayload

end
-- ==== Proof.KernelValue.lean ====
/-
  What the kernel's program leaves in its result array.

  The 16777216 queries are cut into 65536 blocks of 256 rows. Before the grid runs, the two coordinate arrays are read as
  columns (entry q of the array is row q of the column) and the table changes format, which on extended reals changes
  nothing. Grid point t is handed rows 256·t … 256·t + 255 of both columns and the whole table, and writes rows
  256·t … 256·t + 255 of the result column. At row p of its block the body's arithmetic is the one-hot form of the
  interpolation at that row's two coordinates, so point t writes its block of ONE column: the one-hot form of every query.
  Row r of the column lies in the block of point r / 256, so the blocks cover the column; after the grid the column is read
  back as a one-axis array, entry q being row q.
-/
import proofs.«103338_j71270687310572_1_alg».proof.Proof.FrameKI
import proofs.«103338_j71270687310572_1_alg».proof.Proof.Spec
import proofs.«103338_j71270687310572_1_alg».proof.Proof.LibRowOps
import proofs.«103338_j71270687310572_1_alg».proof.Proof.KernelPayload
import Idealize.ShloMosaic.Lib.Pipeline.Value

noncomputable section

namespace Cert.KernelIdeal.KValue

open Cert.KernelIdeal Cert.KernelIdeal.Gen Idealize.ShloMosaic Idealize.ShloMosaic.TcCoe Idealize.SL.Sem
section Lemmas

open Idealize.ShloMosaic.Pipeline (Dat)
open Idealize.ShloMosaic.ValueIdx

/-! ## The arrays -/

section Arrays

variable (m : (ℓ : Loc nD τ sig) → Buf (Elt Ideal) ℓ)

/-- The row coordinates, the column coordinates and the table, as launched on core c. -/
abbrev argX (c : Dev nD) : S16777216.Idx → EReal := m ((c.tc : Thread nD τ).loc main_arg0)
abbrev argT (c : Dev nD) : S16777216.Idx → EReal := m ((c.tc : Thread nD τ).loc main_arg1)
abbrev argW (c : Dev nD) : S2048x2048.Idx → EReal := m ((c.tc : Thread nD τ).loc main_arg2)

/-- The result as a column: row q holds the one-hot form of the interpolation at query q. -/
abbrev column (c : Dev nD) : S16777216x1.Idx → EReal :=
  shapeCast S16777216x1 (Cert.Bilinear.viaLines (argX m c) (argT m c) (argW m c)) shapeCasts_S16777216_S16777216x1

/-- Row q of the column is the one-hot form at (x q, t q). -/
theorem column_apply (c : Dev nD) (q : Fin 16777216) (u : Fin 1) :
    column m c (ix2 q u) = Cert.Bilinear.oneHot (argX m c (ix1 q)) (argT m c (ix1 q)) (argW m c) :=
  Cert.RowOps.shapeCast_a_a1_apply _ _ q u

/-- The grid finds the row coordinates as a column, -/
theorem V_v0 (c : Dev nD) : (V m c main_v0 : S16777216x1.Idx → EReal)
    = shapeCast S16777216x1 (argX m c) shapeCasts_S16777216_S16777216x1 := by
  show StableHlo.after hostOps0 (fun b => m (c, b)) (Proc.devRef .tc main_v0) = _
  after_results
  rfl

/-- the column coordinates as a column, -/
theorem V_v1 (c : Dev nD) : (V m c main_v1 : S16777216x1.Idx → EReal)
    = shapeCast S16777216x1 (argT m c) shapeCasts_S16777216_S16777216x1 := by
  show StableHlo.after hostOps0 (fun b => m (c, b)) (Proc.devRef .tc main_v1) = _
  after_results
  rfl

/-- and the table as launched: its change of format is the identity on extended reals. -/
theorem V_v2 (c : Dev nD) : (V m c main_v2 : S2048x2048.Idx → EReal) = argW m c := by
  show StableHlo.after hostOps0 (fun b => m (c, b)) (Proc.devRef .tc main_v2) = _
  after_results
  rfl

end Arrays

/-! ## The index maps -/

theorem hz : (![0, 0] : Fin 2 → Nat) = fun _ => 0 := funext fun a => by fin_cases a <;> rfl

/-- A grid point is below 65536. -/
theorem point_lt (t : Fin cfg0.N) : t.val < 65536 := by
  have hN : cfg0.N = 65536 := N_0
  have := t.isLt
  omega

/-- The one grid coordinate of point t is t. -/
theorem coord_val (t : Fin cfg0.N) : ((grid0.coords t) 0).val = t.val := by
  have ht := point_lt t
  show t.val / grid0.stride 0 % 65536 = t.val
  rw [show grid0.stride 0 = 1 from by decide]
  omega

/-- As a 32-bit integer read back, too. -/
theorem coord_word (t : Fin cfg0.N) : (BitVec.ofNat 32 ((grid0.coords t) 0).val).toNat = t.val := by
  have ht := point_lt t
  rw [coord_val t, BitVec.toNat_ofNat]
  omega

/-- The two coordinate windows and the result window are at block (t, 0) at point t; the table's is at block (0, 0). -/
theorem idx0 (t : Fin cfg0.N) : win0_0.index t (0 : Fin 2) = t.val ∧ win0_0.index t (1 : Fin 2) = 0 :=
  ⟨coord_word t, rfl⟩
theorem idx1 (t : Fin cfg0.N) : win0_1.index t (0 : Fin 2) = t.val ∧ win0_1.index t (1 : Fin 2) = 0 :=
  ⟨coord_word t, rfl⟩
theorem idx2 (t : Fin cfg0.N) : win0_2.index t (0 : Fin 2) = 0 ∧ win0_2.index t (1 : Fin 2) = 0 :=
  ⟨rfl, rfl⟩
theorem idx3 (t : Fin cfg0.N) : win0_3.index t (0 : Fin 2) = t.val ∧ win0_3.index t (1 : Fin 2) = 0 :=
  ⟨coord_word t, rfl⟩

/-- The result window writes back at every point: the next point's block is another one. -/
theorem flush3 (t : Fin cfg0.N) : (cfg0.win 3).flush t = true := by
  have hout : (cfg0.win 3).isOut = true := rfl
  unfold Pipeline.Window.flush
  rw [hout, Bool.true_and, Bool.or_eq_true, decide_eq_true_eq, decide_eq_true_eq]
  by_cases hl : t.val + 1 = cfg0.grid.N
  · exact Or.inl hl
  · have hlt : t.val + 1 < cfg0.grid.N := by
      have := t.isLt
      have hNN : cfg0.N = cfg0.grid.N := rfl
      omega
    refine Or.inr ⟨hlt, fun e => ?_⟩
    have h01 : win0_3.index ⟨t.val + 1, hlt⟩ (0 : Fin 2) = win0_3.index t (0 : Fin 2) := congrFun e 0
    have h1 : win0_3.index ⟨t.val + 1, hlt⟩ (0 : Fin 2) = t.val + 1 := (idx3 ⟨t.val + 1, hlt⟩).1
    have h2 : win0_3.index t (0 : Fin 2) = t.val := (idx3 t).1
    omega

/-! ## The blocks a point is handed -/

section Blocks

variable (m : (ℓ : Loc nD τ sig) → Buf (Elt Ideal) ℓ)

/-- Row p of point t's block of row coordinates is entry 256·t + p of the array. -/
theorem xblk_apply (c : Dev nD) (t : Fin cfg0.N) (p : Fin 256) (u : Fin 1) (q : Fin 16777216) (hq : q.val = t.val * 256 + p.val) :
    (iblk m c 0 t : Vec Ideal S256x1 .f32) (ix2 p u) = argX m c (ix1 q) := by
  obtain ⟨e0, e1⟩ := idx0 t
  have he : ((cfg0.win 0).blk t).view.emb (ix2 p u) = ix2 q (0 : Fin 1) := by
    funext a; apply Fin.ext
    match a with
    | ⟨0, _⟩ => show win0_0.index t (0 : Fin 2) * 256 + 1 * p.val = q.val; rw [e0, hq]; omega
    | ⟨1, _⟩ => show win0_0.index t (1 : Fin 2) * 1 + 1 * u.val = 0; rw [e1]; omega
  unfold iblk
  rw [View.read_apply]
  show V m c main_v0 (((cfg0.win 0).blk t).view.emb (ix2 p u)) = _
  refine (congrFun (V_v0 m c) _).trans ?_
  refine (congrArg (shapeCast S16777216x1 (argX m c) shapeCasts_S16777216_S16777216x1) he).trans ?_
  exact Cert.RowOps.shapeCast_a_a1_apply _ _ q 0

/-- Row p of point t's block of column coordinates is entry 256·t + p of the array. -/
theorem tblk_apply (c : Dev nD) (t : Fin cfg0.N) (p : Fin 256) (u : Fin 1) (q : Fin 16777216) (hq : q.val = t.val * 256 + p.val) :
    (iblk m c 1 t : Vec Ideal S256x1 .f32) (ix2 p u) = argT m c (ix1 q) := by
  obtain ⟨e0, e1⟩ := idx1 t
  have he : ((cfg0.win 1).blk t).view.emb (ix2 p u) = ix2 q (0 : Fin 1) := by
    funext a; apply Fin.ext
    match a with
    | ⟨0, _⟩ => show win0_1.index t (0 : Fin 2) * 256 + 1 * p.val = q.val; rw [e0, hq]; omega
    | ⟨1, _⟩ => show win0_1.index t (1 : Fin 2) * 1 + 1 * u.val = 0; rw [e1]; omega
  unfold iblk
  rw [View.read_apply]
  show V m c main_v1 (((cfg0.win 1).blk t).view.emb (ix2 p u)) = _
  refine (congrFun (V_v1 m c) _).trans ?_
  refine (congrArg (shapeCast S16777216x1 (argT m c) shapeCasts_S16777216_S16777216x1) he).trans ?_
  exact Cert.RowOps.shapeCast_a_a1_apply _ _ q 0

/-- Every point is handed the whole table. -/
theorem wblk_eq (c : Dev nD) (t : Fin cfg0.N) : (iblk m c 2 t : Vec Ideal S2048x2048 .bf16) = argW m c := by
  obtain ⟨e0, e1⟩ := idx2 t
  funext j
  have he : ((cfg0.win 2).blk t).view.emb j = j := by
    funext a; apply Fin.ext
    match a with
    | ⟨0, _⟩ => show win0_2.index t (0 : Fin 2) * 2048 + 1 * (j 0).val = (j 0).val; rw [e0]; omega
    | ⟨1, _⟩ => show win0_2.index t (1 : Fin 2) * 2048 + 1 * (j 1).val = (j 1).val; rw [e1]; omega
  unfold iblk
  rw [View.read_apply]
  show V m c main_v2 (((cfg0.win 2).blk t).view.emb j) = _
  refine (congrFun (V_v2 m c) _).trans ?_
  exact congrArg (argW m c) he

end Blocks

/-! ## What a point writes, and the whole column -/

section Column

variable (m : (ℓ : Loc nD τ sig) → Buf (Elt Ideal) ℓ)

/-- Point t writes back its block of the column: row p of what the body leaves is the one-hot form at the coordinates
    in row p of the blocks it was handed, which are entries 256·t + p of the arrays. -/
theorem flushed_eq (c : Dev nD) (t : Fin cfg0.N) :
    (dats m 0 c).flushed 3 t = ((cfg0.win 3).blk t).view.read (Elt Ideal) (column m c) := by
  show (cfg0.win 3).cut (grid0.coords t) ((dats m 0 c).after 3 t) = _
  rw [after0_3]
  unfold out0_3
  rw [View.canon_unit_zero hz]
  simp only [View.ld_unit_zero (S := S256x1) hz, View.ld_unit_zero (S := S2048x2048) hz]
  funext j
  obtain ⟨p, u, rfl⟩ : ∃ (p : Fin 256) (u : Fin 1), j = ix2 p u := ⟨j 0, j 1, eq_ix2 j⟩
  have ht := point_lt t
  obtain ⟨e0, e1⟩ := idx3 t
  have hq : t.val * 256 + p.val < 16777216 := by have := p.isLt; omega
  have he : ((cfg0.win 3).blk t).view.emb (ix2 p u) = ix2 (⟨t.val * 256 + p.val, hq⟩ : Fin 16777216) (0 : Fin 1) := by
    funext a; apply Fin.ext
    match a with
    | ⟨0, _⟩ => show win0_3.index t (0 : Fin 2) * 256 + 1 * p.val = t.val * 256 + p.val; rw [e0]; omega
    | ⟨1, _⟩ => show win0_3.index t (1 : Fin 2) * 1 + 1 * u.val = 0; rw [e1]; omega
  refine (KPayload.payload_apply (iblk m c 0 t) (iblk m c 1 t) (iblk m c 2 t) p u).trans ?_
  rw [xblk_apply m c t p 0 ⟨t.val * 256 + p.val, hq⟩ rfl, tblk_apply m c t p 0 ⟨t.val * 256 + p.val, hq⟩ rfl, wblk_eq m c t,
    View.read_apply]
  show _ = column m c (((cfg0.win 3).blk t).view.emb (ix2 p u))
  exact ((congrArg (column m c) he).trans (column_apply m c _ _)).symm

/-- Row r of the column lies in the block of point r / 256. -/
theorem covered (i : S16777216x1.Idx) :
    ∃ t : Fin cfg0.N, (cfg0.win 3).flush t = true ∧ i ∈ ((cfg0.win 3).blk t).view.set := by
  have hN : cfg0.N = 65536 := N_0
  have hi0 : (i 0).val < 16777216 := (i 0).isLt
  have hi1 : (i 1).val < 1 := (i 1).isLt
  obtain ⟨t, ht⟩ : ∃ t : Fin cfg0.N, t.val = (i 0).val / 256 := ⟨⟨(i 0).val / 256, by omega⟩, rfl⟩
  obtain ⟨e0, e1⟩ := idx3 t
  refine ⟨t, flush3 t, ?_⟩
  show i ∈ ((View.whole main_v3).slice (win0_3.rect t)).set
  rw [View.set_slice_whole, Rect.mem_set_unit]
  intro a
  match a with
  | ⟨0, _⟩ =>
    show win0_3.index t (0 : Fin 2) * 256 ≤ (i 0).val ∧ (i 0).val < win0_3.index t (0 : Fin 2) * 256 + 256
    rw [e0, ht]; omega
  | ⟨1, _⟩ =>
    show win0_3.index t (1 : Fin 2) * 1 ≤ (i 1).val ∧ (i 1).val < win0_3.index t (1 : Fin 2) * 1 + 1
    rw [e1]; omega

/-- After the grid the result window's array is the column. -/
theorem final (c : Dev nD) : (dats m 0 c).arrAt 3 cfg0.N = column m c :=
  (dats m 0 c).arrAt_eq_of_cover 3 (column m c) (fun t _ => flushed_eq m c t) covered

/-- The column read back as a one-axis array is the result array: the one-hot form of every query. -/
theorem tail_v4 (c : Dev nD) :
    Pipeline.afterTail₀ cfgs (dats m) 0 (V0 m) [hostOps1] c main_v4
      = Cert.Bilinear.viaLines (argX m c) (argT m c) (argW m c) := by
  unfold Pipeline.afterTail₀
  show StableHlo.after hostOps1 _ (Proc.devRef .tc main_v4) = _
  after_results
  show shapeCast S16777216 (Pipeline.withArrays spec0 c (V0 m c) (fun w => (dats m 0 c).arrAt w cfg0.N) (Proc.devRef .tc main_v3))
      shapeCasts_S16777216x1_S16777216 = _
  refine (congrArg (fun v : S16777216x1.Idx → EReal => shapeCast S16777216 v shapeCasts_S16777216x1_S16777216)
    ((Pipeline.withArrays_arr spec0 launch0.win.arr_inj c (V0 m c) (fun w => (dats m 0 c).arrAt w cfg0.N) 3).trans (final m c))).trans ?_
  exact shapeCast_shapeCast _ _ _

end Column

end Lemmas

/-! ## The run -/

/-- Every weakly fair execution of the kernel's program terminates with the result array holding, at query q, the one-hot
    form of the interpolation at (x q, t q) in the table, and the three argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4)
          = Cert.Bilinear.viaLines (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ h c =>
    ⟨((h c).2 main_v4 (Pipeline.mem_restRefs_of main_v4 (by decide) (by decide))).trans (tail_v4 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RefOps.lean ====
/-
  The reference's operations, in order: the interpolation routine's 142 lines with each of its four masked selections
  (a zero broadcast, then the selection) written out where it is called, over the buffers of that call. The routine is
  called with the table, the row coordinates and the column coordinates, in that order.
-/
import proofs.«103338_j71270687310572_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The routine's three operands: the table, the row coordinates, the column coordinates. -/
abbrev aW : TRef sig ⟨S2048x2048, .f32⟩ := .of main_arg2
abbrev aX : TRef sig ⟨S16777216, .f32⟩ := .of main_arg0
abbrev aT : TRef sig ⟨S16777216, .f32⟩ := .of main_arg1

/-- @main's 145 operations, in order. -/
abbrev ops : List (HloOp τ sig (Elt F)) :=
  [ TRef.unary aX main_call0.v0 Host.floor,
    TRef.binary aX main_call0.v0 main_call0.v1 subf,
    TRef.nullary main_call0.cst (constant S_ .f32 0x3F800000#32),
    TRef.unary main_call0.cst main_call0.v2 (broadcastInDim S16777216 ![] bcast_S_S16777216),
    TRef.binary main_call0.v2 main_call0.v1 main_call0.v3 subf,
    TRef.unary main_call0.v0 main_call0.v4 (fptosi 32),
    TRef.nullary main_call0.c (constantI S_ 32 1#32),
    TRef.unary main_call0.c main_call0.v5 (broadcastInDim S16777216 ![] bcast_S_S16777216),
    TRef.binary main_call0.v4 main_call0.v5 main_call0.v6 addi,
    TRef.nullary main_call0.c_0 (constantI S_ 32 0#32),
    TRef.unary main_call0.c_0 main_call0.v7 (broadcastInDim S16777216 ![] bcast_S_S16777216),
    TRef.binary main_call0.v4 main_call0.v7 main_call0.v8 (cmpi .sge),
    TRef.nullary main_call0.c_1 (constantI S_ 32 2048#32),
    TRef.unary main_call0.c_1 main_call0.v9 (broadcastInDim S16777216 ![] bcast_S_S16777216),
    TRef.binary main_call0.v4 main_call0.v9 main_call0.v10 (cmpi .slt),
    TRef.binary main_call0.v8 main_call0.v10 main_call0.v11 andi,
    TRef.nullary main_call0.c_2 (constantI S_ 32 0#32),
    TRef.unary main_call0.c_2 main_call0.v12 (broadcastInDim S16777216 ![] bcast_S_S16777216),
    TRef.binary main_call0.v6 main_call0.v12 main_call0.v13 (cmpi .sge),
    TRef.nullary main_call0.c_3 (constantI S_ 32 2048#32),
    TRef.unary main_call0.c_3 main_call0.v14 (broadcastInDim S16777216 ![] bcast_S_S16777216),
    TRef.binary main_call0.v6 main_call0.v14 main_call0.v15 (cmpi .slt),
    TRef.binary main_call0.v13 main_call0.v15 main_call0.v16 andi,
    TRef.unary aT main_call0.v17 Host.floor,
    TRef.binary aT main_call0.v17 main_call0.v18 subf,
    TRef.nullary main_call0.cst_4 (constant S_ .f32 0x3F800000#32),
    TRef.unary main_call0.cst_4 main_call0.v19 (broadcastInDim S16777216 ![] bcast_S_S16777216),
    TRef.binary main_call0.v19 main_call0.v18 main_call0.v20 subf,
    TRef.unary main_call0.v17 main_call0.v21 (fptosi 32),
    TRef.nullary main_call0.c_5 (constantI S_ 32 1#32),
    TRef.unary main_call0.c_5 main_call0.v22 (broadcastInDim S16777216 ![] bcast_S_S16777216),
    TRef.binary main_call0.v21 main_call0.v22 main_call0.v23 addi,
    TRef.nullary main_call0.c_6 (constantI S_ 32 0#32),
    TRef.unary main_call0.c_6 main_call0.v24 (broadcastInDim S16777216 ![] bcast_S_S16777216),
    TRef.binary main_call0.v21 main_call0.v24 main_call0.v25 (cmpi .sge),
    TRef.nullary main_call0.c_7 (constantI S_ 32 2048#32),
    TRef.unary main_call0.c_7 main_call0.v26 (broadcastInDim S16777216 ![] bcast_S_S16777216),
    TRef.binary main_call0.v21 main_call0.v26 main_call0.v27 (cmpi .slt),
    TRef.binary main_call0.v25 main_call0.v27 main_call0.v28 andi,
    TRef.nullary main_call0.c_8 (constantI S_ 32 0#32),
    TRef.unary main_call0.c_8 main_call0.v29 (broadcastInDim S16777216 ![] bcast_S_S16777216),
    TRef.binary main_call0.v23 main_call0.v29 main_call0.v30 (cmpi .sge),
    TRef.nullary main_call0.c_9 (constantI S_ 32 2048#32),
    TRef.unary main_call0.c_9 main_call0.v31 (broadcastInDim S16777216 ![] bcast_S_S16777216),
    TRef.binary main_call0.v23 main_call0.v31 main_call0.v32 (cmpi .slt),
    TRef.binary main_call0.v30 main_call0.v32 main_call0.v33 andi,
    TRef.binary main_call0.v11 main_call0.v28 main_call0.v34 andi,
    TRef.nullary main_call0.c_10 (constantI S_ 32 0#32),
    TRef.unary main_call0.c_10 main_call0.v35 (broadcastInDim S16777216 ![] bcast_S_S16777216),
    TRef.binary main_call0.v4 main_call0.v35 main_call0.v36 (cmpi .slt),
    TRef.nullary main_call0.c_11 (constantI S_ 32 2048#32),
    TRef.unary main_call0.c_11 main_call0.v37 (broadcastInDim S16777216 ![] bcast_S_S16777216),
    TRef.binary main_call0.v4 main_call0.v37 main_call0.v38 addi,
    TRef.ternary main_call0.v36 main_call0.v38 main_call0.v4 main_call0.v39 select,
    TRef.nullary main_call0.c_12 (constantI S_ 32 0#32),
    TRef.unary main_call0.c_12 main_call0.v40 (broadcastInDim S16777216 ![] bcast_S_S16777216),
    TRef.binary main_call0.v21 main_call0.v40 main_call0.v41 (cmpi .slt),
    TRef.nullary main_call0.c_13 (constantI S_ 32 2048#32),
    TRef.unary main_call0.c_13 main_call0.v42 (broadcastInDim S16777216 ![] bcast_S_S16777216),
    TRef.binary main_call0.v21 main_call0.v42 main_call0.v43 addi,
    TRef.ternary main_call0.v41 main_call0.v43 main_call0.v21 main_call0.v44 select,
    TRef.unary main_call0.v39 main_call0.v45 (broadcastInDim S16777216x1 ![0] bcast_S16777216_S16777216x1_0),
    TRef.unary main_call0.v44 main_call0.v46 (broadcastInDim S16777216x1 ![0] bcast_S16777216_S16777216x1_0),
    TRef.binary main_call0.v45 main_call0.v46 main_call0.v47 (fun a b => concatenate S16777216x2 1 [⟨S16777216x1, a⟩, ⟨S16777216x1, b⟩] concatenates_S16777216x1_S16777216x1_S16777216x2_d1),
    TRef.binary aW main_call0.v47 main_call0.v48 (fun x i => Host.gather gather_S2048x2048_S16777216x2_S16777216_n_01_n_n_01_1_11 x i),
    TRef.nullary main_call0.cst_14 (constant S_ .f32 0x00000000#32),
    TRef.unary main_call0.cst_14 main_call0.call0.v0 (broadcastInDim S16777216 ![] bcast_S_S16777216),
    TRef.ternary main_call0.v34 main_call0.v48 main_call0.call0.v0 main_call0.call0.v1 select,
    TRef.binary main_call0.v3 main_call0.v20 main_call0.v50 mulf,
    TRef.binary main_call0.v50 main_call0.call0.v1 main_call0.v51 mulf,
    TRef.binary main_call0.v11 main_call0.v33 main_call0.v52 andi,
    TRef.nullary main_call0.c_15 (constantI S_ 32 0#32),
    TRef.unary main_call0.c_15 main_call0.v53 (broadcastInDim S16777216 ![] bcast_S_S16777216),
    TRef.binary main_call0.v4 main_call0.v53 main_call0.v54 (cmpi .slt),
    TRef.nullary main_call0.c_16 (constantI S_ 32 2048#32),
    TRef.unary main_call0.c_16 main_call0.v55 (broadcastInDim S16777216 ![] bcast_S_S16777216),
    TRef.binary main_call0.v4 main_call0.v55 main_call0.v56 addi,
    TRef.ternary main_call0.v54 main_call0.v56 main_call0.v4 main_call0.v57 select,
    TRef.nullary main_call0.c_17 (constantI S_ 32 0#32),
    TRef.unary main_call0.c_17 main_call0.v58 (broadcastInDim S16777216 ![] bcast_S_S16777216),
    TRef.binary main_call0.v23 main_call0.v58 main_call0.v59 (cmpi .slt),
    TRef.nullary main_call0.c_18 (constantI S_ 32 2048#32),
    TRef.unary main_call0.c_18 main_call0.v60 (broadcastInDim S16777216 ![] bcast_S_S16777216),
    TRef.binary main_call0.v23 main_call0.v60 main_call0.v61 addi,
    TRef.ternary main_call0.v59 main_call0.v61 main_call0.v23 main_call0.v62 select,
    TRef.unary main_call0.v57 main_call0.v63 (broadcastInDim S16777216x1 ![0] bcast_S16777216_S16777216x1_0),
    TRef.unary main_call0.v62 main_call0.v64 (broadcastInDim S16777216x1 ![0] bcast_S16777216_S16777216x1_0),
    TRef.binary main_call0.v63 main_call0.v64 main_call0.v65 (fun a b => concatenate S16777216x2 1 [⟨S16777216x1, a⟩, ⟨S16777216x1, b⟩] concatenates_S16777216x1_S16777216x1_S16777216x2_d1),
    TRef.binary aW main_call0.v65 main_call0.v66 (fun x i => Host.gather gather_S2048x2048_S16777216x2_S16777216_n_01_n_n_01_1_11 x i),
    TRef.nullary main_call0.cst_19 (constant S_ .f32 0x00000000#32),
    TRef.unary main_call0.cst_19 main_call0.call1.v0 (broadcastInDim S16777216 ![] bcast_S_S16777216),
    TRef.ternary main_call0.v52 main_call0.v66 main_call0.call1.v0 main_call0.call1.v1 select,
    TRef.binary main_call0.v3 main_call0.v18 main_call0.v68 mulf,
    TRef.binary main_call0.v68 main_call0.call1.v1 main_call0.v69 mulf,
    TRef.binary main_call0.v16 main_call0.v28 main_call0.v70 andi,
    TRef.nullary main_call0.c_20 (constantI S_ 32 0#32),
    TRef.unary main_call0.c_20 main_call0.v71 (broadcastInDim S16777216 ![] bcast_S_S16777216),
    TRef.binary main_call0.v6 main_call0.v71 main_call0.v72 (cmpi .slt),
    TRef.nullary main_call0.c_21 (constantI S_ 32 2048#32),
    TRef.unary main_call0.c_21 main_call0.v73 (broadcastInDim S16777216 ![] bcast_S_S16777216),
    TRef.binary main_call0.v6 main_call0.v73 main_call0.v74 addi,
    TRef.ternary main_call0.v72 main_call0.v74 main_call0.v6 main_call0.v75 select,
    TRef.nullary main_call0.c_22 (constantI S_ 32 0#32),
    TRef.unary main_call0.c_22 main_call0.v76 (broadcastInDim S16777216 ![] bcast_S_S16777216),
    TRef.binary main_call0.v21 main_call0.v76 main_call0.v77 (cmpi .slt),
    TRef.nullary main_call0.c_23 (constantI S_ 32 2048#32),
    TRef.unary main_call0.c_23 main_call0.v78 (broadcastInDim S16777216 ![] bcast_S_S16777216),
    TRef.binary main_call0.v21 main_call0.v78 main_call0.v79 addi,
    TRef.ternary main_call0.v77 main_call0.v79 main_call0.v21 main_call0.v80 select,
    TRef.unary main_call0.v75 main_call0.v81 (broadcastInDim S16777216x1 ![0] bcast_S16777216_S16777216x1_0),
    TRef.unary main_call0.v80 main_call0.v82 (broadcastInDim S16777216x1 ![0] bcast_S16777216_S16777216x1_0),
    TRef.binary main_call0.v81 main_call0.v82 main_call0.v83 (fun a b => concatenate S16777216x2 1 [⟨S16777216x1, a⟩, ⟨S16777216x1, b⟩] concatenates_S16777216x1_S16777216x1_S16777216x2_d1),
    TRef.binary aW main_call0.v83 main_call0.v84 (fun x i => Host.gather gather_S2048x2048_S16777216x2_S16777216_n_01_n_n_01_1_11 x i),
    TRef.nullary main_call0.cst_24 (constant S_ .f32 0x00000000#32),
    TRef.unary main_call0.cst_24 main_call0.call2.v0 (broadcastInDim S16777216 ![] bcast_S_S16777216),
    TRef.ternary main_call0.v70 main_call0.v84 main_call0.call2.v0 main_call0.call2.v1 select,
    TRef.binary main_call0.v1 main_call0.v20 main_call0.v86 mulf,
    TRef.binary main_call0.v86 main_call0.call2.v1 main_call0.v87 mulf,
    TRef.binary main_call0.v16 main_call0.v33 main_call0.v88 andi,
    TRef.nullary main_call0.c_25 (constantI S_ 32 0#32),
    TRef.unary main_call0.c_25 main_call0.v89 (broadcastInDim S16777216 ![] bcast_S_S16777216),
    TRef.binary main_call0.v6 main_call0.v89 main_call0.v90 (cmpi .slt),
    TRef.nullary main_call0.c_26 (constantI S_ 32 2048#32),
    TRef.unary main_call0.c_26 main_call0.v91 (broadcastInDim S16777216 ![] bcast_S_S16777216),
    TRef.binary main_call0.v6 main_call0.v91 main_call0.v92 addi,
    TRef.ternary main_call0.v90 main_call0.v92 main_call0.v6 main_call0.v93 select,
    TRef.nullary main_call0.c_27 (constantI S_ 32 0#32),
    TRef.unary main_call0.c_27 main_call0.v94 (broadcastInDim S16777216 ![] bcast_S_S16777216),
    TRef.binary main_call0.v23 main_call0.v94 main_call0.v95 (cmpi .slt),
    TRef.nullary main_call0.c_28 (constantI S_ 32 2048#32),
    TRef.unary main_call0.c_28 main_call0.v96 (broadcastInDim S16777216 ![] bcast_S_S16777216),
    TRef.binary main_call0.v23 main_call0.v96 main_call0.v97 addi,
    TRef.ternary main_call0.v95 main_call0.v97 main_call0.v23 main_call0.v98 select,
    TRef.unary main_call0.v93 main_call0.v99 (broadcastInDim S16777216x1 ![0] bcast_S16777216_S16777216x1_0),
    TRef.unary main_call0.v98 main_call0.v100 (broadcastInDim S16777216x1 ![0] bcast_S16777216_S16777216x1_0),
    TRef.binary main_call0.v99 main_call0.v100 main_call0.v101 (fun a b => concatenate S16777216x2 1 [⟨S16777216x1, a⟩, ⟨S16777216x1, b⟩] concatenates_S16777216x1_S16777216x1_S16777216x2_d1),
    TRef.binary aW main_call0.v101 main_call0.v102 (fun x i => Host.gather gather_S2048x2048_S16777216x2_S16777216_n_01_n_n_01_1_11 x i),
    TRef.nullary main_call0.cst_29 (constant S_ .f32 0x00000000#32),
    TRef.unary main_call0.cst_29 main_call0.call3.v0 (broadcastInDim S16777216 ![] bcast_S_S16777216),
    TRef.ternary main_call0.v88 main_call0.v102 main_call0.call3.v0 main_call0.call3.v1 select,
    TRef.binary main_call0.v1 main_call0.v18 main_call0.v104 mulf,
    TRef.binary main_call0.v104 main_call0.call3.v1 main_call0.v105 mulf,
    TRef.binary main_call0.v51 main_call0.v69 main_call0.v106 addf,
    TRef.binary main_call0.v106 main_call0.v87 main_call0.v107 addf,
    TRef.binary main_call0.v107 main_call0.v105 main_call0.v108 addf ]

theorem ops_sub : (ops : List (HloOp τ sig (Elt F))).Forall fun op => op.bufs ⊆ tcRefs τ sig :=
  ⟨unary_bufs_sub .., binary_bufs_sub .., nullary_bufs_sub .., unary_bufs_sub .., binary_bufs_sub .., unary_bufs_sub ..,
    nullary_bufs_sub .., unary_bufs_sub .., binary_bufs_sub .., nullary_bufs_sub .., unary_bufs_sub .., binary_bufs_sub ..,
    nullary_bufs_sub .., unary_bufs_sub .., binary_bufs_sub .., binary_bufs_sub .., nullary_bufs_sub .., unary_bufs_sub ..,
    binary_bufs_sub .., nullary_bufs_sub .., unary_bufs_sub .., binary_bufs_sub .., binary_bufs_sub .., unary_bufs_sub ..,
    binary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., nullary_bufs_sub ..,
    unary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., binary_bufs_sub .., binary_bufs_sub .., nullary_bufs_sub ..,
    unary_bufs_sub .., ternary_bufs_sub .., binary_bufs_sub .., binary_bufs_sub .., binary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., binary_bufs_sub .., binary_bufs_sub .., nullary_bufs_sub ..,
    unary_bufs_sub .., ternary_bufs_sub .., binary_bufs_sub .., binary_bufs_sub .., binary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., binary_bufs_sub .., binary_bufs_sub .., nullary_bufs_sub ..,
    unary_bufs_sub .., ternary_bufs_sub .., binary_bufs_sub .., binary_bufs_sub .., binary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., binary_bufs_sub .., binary_bufs_sub .., nullary_bufs_sub ..,
    unary_bufs_sub .., ternary_bufs_sub .., binary_bufs_sub .., binary_bufs_sub .., binary_bufs_sub .., binary_bufs_sub ..,
    binary_bufs_sub ..⟩

end Cert.ReferenceIdeal.Ops

end
-- ==== Proof.RefRun.lean ====
/-
  The reference program runs its operations in order.

  The program is one call of the interpolation routine, which in turn calls a masked selection four times; written
  out, that is a straight line of 145 host operations. Unfolding the routines at their calls and re-associating the
  sequencing shows the program IS that line, so every weakly fair execution terminates with each buffer holding what
  the line's operations, applied in order to the launch contents, leave there.
-/
import proofs.«103338_j71270687310572_1_alg».proof.Proof.RefOps

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

-- 145 binds re-associated: the rewriting under the chain recurses once per statement
set_option maxRecDepth 16384 in
set_option maxHeartbeats 4000000 in
/-- @main is the straight line: the two routines unfolded at their calls, the sequencing re-associated. -/
theorem main_eq (c : Dev nD) : main (F := F) c = seq ops := by
  simp only [main, fn_map_coordinates.body, fn_map_coordinates.body_part0, fn_map_coordinates.body_part1,
    fn_map_coordinates.body_part2, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- From any memory with zero counters, every weakly fair execution of @main terminates, and every final state has each
    buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Ops

end
-- ==== Proof.LibPointGather.lean ====
/-
  A gather of single entries out of a two-axis table.

  The table has shape [R, C]; the start indices are an [n, 2] array whose row q holds a row index and a column index;
  both table axes are collapsed (a slice is one entry), there are no offset or batching axes, and the index vector lies
  along axis 1. Result position q is then the table's entry at row q's two indices, each read as a SIGNED integer and
  clamped into the table: a negative index reads line 0, one past the end reads the last line.
-/
import Idealize.ShloMosaic.PureOps.ShapeOps
import Idealize.ShloMosaic.Lib.ValueIdx

noncomputable section

namespace Cert.PointGather

open Idealize.ShloMosaic Idealize.ShloMosaic.ValueIdx

variable {α : Type}

/-- Every coordinate of the one-axis index of q is q. -/
theorem ix1_val {n : ℕ} (q : Fin n) (X : Fin 1) : ((ix1 q : (⟨1, ![n]⟩ : Shape).Idx) X).val = q.val := by
  have hX : X = 0 := Subsingleton.elim _ _
  subst hX; rfl

/-- The start-index array is read, for table axis a, at (q, a). -/
theorem siIdx_point {R C n : ℕ} (d : GatherDims ⟨2, ![R, C]⟩ ⟨2, ![n, 2]⟩ ⟨1, ![n]⟩)
    (hsim : d.startIndexMap = [0, 1]) (hivd : d.indexVectorDim = 1) (q : Fin n) (a : Fin 2)
    (h : d.startIndexMap.idxOf a < d.startIndexMap.length) :
    d.siIdx (ix1 q) ⟨d.startIndexMap.idxOf a, h⟩ = ix2 q a := by
  funext b
  match b with
  | ⟨0, _⟩ =>
    unfold GatherDims.siIdx
    rw [dif_neg (by rw [hivd]; simp)]
    unfold GatherDims.siCoord
    apply Fin.ext
    simp only [Fin.val_cast]
    exact ix1_val q _
  | ⟨1, _⟩ =>
    unfold GatherDims.siIdx
    rw [dif_pos (by rw [hivd])]
    apply Fin.ext
    show List.idxOf a d.startIndexMap = a.val
    rw [hsim]
    match a with
    | ⟨0, _⟩ => rfl
    | ⟨1, _⟩ => rfl

/-- THE READ. Result position q is the table at (row index, column index) of row q of the start indices, each signed
    and clamped into its axis. -/
theorem gather_point_apply {R C n w : ℕ} (d : GatherDims ⟨2, ![R, C]⟩ ⟨2, ![n, 2]⟩ ⟨1, ![n]⟩)
    (hcoll : d.collapsedSliceDims = [0, 1]) (hob : d.operandBatchingDims = [])
    (hsim : d.startIndexMap = [0, 1]) (hivd : d.indexVectorDim = 1)
    (x : (⟨2, ![R, C]⟩ : Shape).Idx → α) (idx : IVec ⟨2, ![n, 2]⟩ w) (q : Fin n) (hR : 0 < R) (hC : 0 < C) :
    Host.gather d x idx (ix1 q)
      = x (ix2 (⟨min (idx (ix2 q (0 : Fin 2))).toInt.toNat (R - 1), by omega⟩ : Fin R)
              (⟨min (idx (ix2 q (1 : Fin 2))).toInt.toNat (C - 1), by omega⟩ : Fin C)) := by
  unfold Host.gather
  congr 1
  funext a
  apply Fin.ext
  have hb : a ∉ d.operandBatchingDims := by rw [hob]; exact List.not_mem_nil
  have hc : a ∈ d.collapsedSliceDims := by
    rw [hcoll]
    match a with
    | ⟨0, _⟩ => exact List.mem_cons_self
    | ⟨1, _⟩ => exact List.mem_cons_of_mem _ List.mem_cons_self
  have hk : a ∉ d.sKept := fun h => ((GatherDims.mem_sKept d a).mp h).1 hc
  have hm : a ∈ d.startIndexMap := by
    rw [hsim]
    match a with
    | ⟨0, _⟩ => exact List.mem_cons_self
    | ⟨1, _⟩ => exact List.mem_cons_of_mem _ List.mem_cons_self
  have hsl : d.sliceSizes a = 1 := d.slice_collapsed a hc
  simp only [GatherDims.operandIdx, GatherDims.batchCoord_eq_zero _ _ _ hb, GatherDims.offCoord_eq_zero _ _ _ hk,
    Nat.add_zero, GatherDims.start, dif_pos hm]
  rw [hsl, siIdx_point d hsim hivd q a]
  match a with
  | ⟨0, _⟩ => rfl
  | ⟨1, _⟩ => rfl

end Cert.PointGather

end
-- ==== Proof.RefTerm.lean ====
/-
  The reference program's result as ONE term of its three argument arrays.

  The interpolation routine treats its two coordinate arrays alike. For a coordinate array it takes the integer below
  each entry, the fractional part (the weight of the next cell) and its complement to one (the weight of the cell), the
  cell as a 32-bit integer and the next cell; for an integer array it asks whether each entry lies in 0 … 2047 and counts
  a negative entry from the table's end. A corner pairs a row integer array with a column integer array: the two counted
  integers side by side are the start indices of a gather of single table entries, the gathered entry is kept where both
  integers lie in the table and replaced by zero elsewhere, and the kept entry is multiplied by the product of the two
  weights. The result is the four corners added left to right.
-/
import proofs.«103338_j71270687310572_1_alg».proof.Proof.Gen.ReferenceIdeal

noncomputable section

namespace Cert.ReferenceIdeal.RTerm

open Cert.ReferenceIdeal Cert.ReferenceIdeal.Gen Idealize.ShloMosaic

variable {F : FTy → Type} [FloatOps F]

/-- One 32-bit integer at every query. -/
def splatI (w : BitVec 32) : IVec S16777216 32 := broadcastInDim S16777216 ![] bcast_S_S16777216 (constantI S_ 32 w)

/-- One float word at every query. -/
def splat (w : BitVec 32) : FVec F S16777216 .f32 := broadcastInDim S16777216 ![] bcast_S_S16777216 (constant S_ .f32 w)

/-- The integer below each coordinate. -/
def vflo (x : FVec F S16777216 .f32) : FVec F S16777216 .f32 := Host.floor x

/-- The fractional parts: the next cells' weights. -/
def vfrac (x : FVec F S16777216 .f32) : FVec F S16777216 .f32 := subf x (vflo x)

/-- Their complements to one: the cells' weights. -/
def vcomp (x : FVec F S16777216 .f32) : FVec F S16777216 .f32 := subf (splat 0x3F800000#32) (vfrac x)

/-- The cells, as 32-bit integers. -/
def vcell (x : FVec F S16777216 .f32) : IVec S16777216 32 := fptosi 32 (vflo x)

/-- The next cells. -/
def vnext (x : FVec F S16777216 .f32) : IVec S16777216 32 := addi (vcell x) (splatI 1#32)

/-- Which integers lie in 0 … 2047. -/
def vvalid (i : IVec S16777216 32) : IVec S16777216 1 := andi (cmpi .sge i (splatI 0#32)) (cmpi .slt i (splatI 2048#32))

/-- Negative integers counted from the table's end. -/
def vwrap (i : IVec S16777216 32) : IVec S16777216 32 := select (cmpi .slt i (splatI 0#32)) (addi i (splatI 2048#32)) i

/-- An integer array as a column. -/
def vcol (i : IVec S16777216 32) : IVec S16777216x1 32 := broadcastInDim S16777216x1 ![0] bcast_S16777216_S16777216x1_0 i

/-- Row q of the start indices: the counted row integer, then the counted column integer. -/
def vstart (i j : IVec S16777216 32) : IVec S16777216x2 32 :=
  concatenate S16777216x2 1 [⟨S16777216x1, vcol (vwrap i)⟩, ⟨S16777216x1, vcol (vwrap j)⟩]
    concatenates_S16777216x1_S16777216x1_S16777216x2_d1

/-- The table's entries at the start indices. -/
def vpick (W : FVec F S2048x2048 .f32) (i j : IVec S16777216 32) : FVec F S16777216 .f32 :=
  Host.gather gather_S2048x2048_S16777216x2_S16777216_n_01_n_n_01_1_11 W (vstart i j)

/-- One corner: the two weights' product times the table's entry, zero for a corner off the table. -/
def vtap (W : FVec F S2048x2048 .f32) (a b : FVec F S16777216 .f32) (i j : IVec S16777216 32) : FVec F S16777216 .f32 :=
  mulf (mulf a b) (select (andi (vvalid i) (vvalid j)) (vpick W i j) (splat 0x00000000#32))

/-- The four corners, added left to right. -/
def refTerm (W : FVec F S2048x2048 .f32) (X T : FVec F S16777216 .f32) : FVec F S16777216 .f32 :=
  addf
    (addf
      (addf (vtap W (vcomp X) (vcomp T) (vcell X) (vcell T)) (vtap W (vcomp X) (vfrac T) (vcell X) (vnext T)))
      (vtap W (vfrac X) (vcomp T) (vnext X) (vcell T)))
    (vtap W (vfrac X) (vfrac T) (vnext X) (vnext T))

end Cert.ReferenceIdeal.RTerm

end
-- ==== Proof.RefFold.lean ====
/-
  The operations' fold at the result and at the arguments.

  Read at the result buffer, the fold of the reference's 145 operations over any contents is the four-corner term of
  the three argument arrays: each operation's result is its function of the contents of its operands' buffers, every
  other buffer keeps what it had, and following the result buffer back through the line reaches the arguments along
  exactly the term's own tree. No operation writes an argument buffer, so each keeps its contents.
-/
import proofs.«103338_j71270687310572_1_alg».proof.Proof.RefOps
import proofs.«103338_j71270687310572_1_alg».proof.Proof.RefTerm

noncomputable section

namespace Cert.ReferenceIdeal.RTerm

open Cert.ReferenceIdeal Cert.ReferenceIdeal.Gen Cert.ReferenceIdeal.Ops Idealize.ShloMosaic Idealize.ShloMosaic.TcCoe Idealize.SL.Sem
  Idealize.ShloMosaic.StableHlo

variable {F : FTy → Type} [FloatOps F]

-- the gather stays folded while the line is followed back: the equation never looks inside it
attribute [local irreducible] Host.gather in
set_option maxRecDepth 16384 in
set_option maxHeartbeats 4000000 in
/-- The fold at the result buffer is the four-corner term of the table, the row coordinates and the column
    coordinates. -/
theorem after_result (V : Valuation τ sig (Elt F)) :
    after ops V (main_v0 : DevRef τ sig)
      = refTerm (V (main_arg2 : DevRef τ sig)) (V (main_arg0 : DevRef τ sig)) (V (main_arg1 : DevRef τ sig)) := by
  after_results_simp
  rfl

set_option maxRecDepth 16384 in
set_option maxHeartbeats 4000000 in
/-- The row coordinates are not written. -/
theorem after_arg0 (V : Valuation τ sig (Elt F)) :
    after ops V (main_arg0 : DevRef τ sig) = V (main_arg0 : DevRef τ sig) := by
  after_results_simp

set_option maxRecDepth 16384 in
set_option maxHeartbeats 4000000 in
/-- The column coordinates are not written. -/
theorem after_arg1 (V : Valuation τ sig (Elt F)) :
    after ops V (main_arg1 : DevRef τ sig) = V (main_arg1 : DevRef τ sig) := by
  after_results_simp

set_option maxRecDepth 16384 in
set_option maxHeartbeats 4000000 in
/-- The table is not written. -/
theorem after_arg2 (V : Valuation τ sig (Elt F)) :
    after ops V (main_arg2 : DevRef τ sig) = V (main_arg2 : DevRef τ sig) := by
  after_results_simp

end Cert.ReferenceIdeal.RTerm

end
-- ==== Proof.RefPoint.lean ====
/-
  The reference's term read at one query.

  Every operation of the term but four acts entry by entry, so at query q it is the scalar operation on the operands'
  entries at q. The four others re-index: a scalar spread over all queries reads the scalar; an integer array stood up
  as a column reads, at (q, 0), its entry q; two columns side by side read the first at column 0 and the second at
  column 1; and the gather of single table entries reads the table at row q's two start indices, each signed and
  clamped into the table. Put together, the term at q is the four-tap interpolation at (x q, t q).
-/
import proofs.«103338_j71270687310572_1_alg».proof.Proof.RefTerm
import proofs.«103338_j71270687310572_1_alg».proof.Proof.Spec
import proofs.«103338_j71270687310572_1_alg».proof.Proof.LibRowOps
import proofs.«103338_j71270687310572_1_alg».proof.Proof.LibPointGather
import Idealize.ShloMosaic.Lib.IdealHost

noncomputable section

namespace Cert.ReferenceIdeal.RTerm

open Cert.ReferenceIdeal Cert.ReferenceIdeal.Gen Idealize.ShloMosaic Idealize.ShloMosaic.ValueIdx Cert.Bilinear

/-! ## Scalars spread over the queries -/

theorem splatI_apply (w : BitVec 32) (j : S16777216.Idx) : splatI w j = w :=
  broadcastInDim_scalar_apply bcast_S_S16777216 (constantI S_ 32 w) j

theorem splat_apply (w : BitVec 32) (j : S16777216.Idx) : splat (F := Ideal) w j = Ideal.ofBits .f32 w :=
  broadcastInDim_scalar_apply bcast_S_S16777216 (constant (F := Ideal) S_ .f32 w) j

/-! ## One coordinate array, entry by entry -/

theorem vflo_apply (x : FVec Ideal S16777216 .f32) (j : S16777216.Idx) : vflo x j = flo (x j) := rfl

theorem vfrac_apply (x : FVec Ideal S16777216 .f32) (j : S16777216.Idx) : vfrac x j = frac (x j) := rfl

theorem vcomp_apply (x : FVec Ideal S16777216 .f32) (j : S16777216.Idx) : vcomp x j = comp (x j) := by
  show splat (F := Ideal) 0x3F800000#32 j - frac (x j) = one - frac (x j)
  rw [splat_apply]
  rfl

theorem vcell_apply (x : FVec Ideal S16777216 .f32) (j : S16777216.Idx) : vcell x j = cell (x j) := rfl

theorem vnext_apply (x : FVec Ideal S16777216 .f32) (j : S16777216.Idx) : vnext x j = next (x j) := by
  show IntOp.addi (cell (x j)) (splatI 1#32 j) = IntOp.addi (cell (x j)) 1#32
  rw [splatI_apply]

/-! ## One integer array, entry by entry -/

theorem vvalid_apply (i : IVec S16777216 32) (j : S16777216.Idx) : vvalid i j = valid (i j) := by
  show IntOp.andi (IntOp.cmpi .sge (i j) (splatI 0#32 j)) (IntOp.cmpi .slt (i j) (splatI 2048#32 j)) = valid (i j)
  rw [splatI_apply, splatI_apply]
  rfl

theorem vwrap_apply (i : IVec S16777216 32) (j : S16777216.Idx) : vwrap i j = wrap (i j) := by
  show Scalar.select (IntOp.cmpi .slt (i j) (splatI 0#32 j)) (IntOp.addi (i j) (splatI 2048#32 j)) (i j) = wrap (i j)
  rw [splatI_apply, splatI_apply]
  rfl

/-! ## The start indices -/

/-- An integer array stood up as a column reads its entry q at (q, 0). -/
theorem vcol_apply (i : IVec S16777216 32) (q : Fin 16777216) (u : Fin 1) : vcol i (ix2 q u) = i (ix1 q) := by
  unfold vcol
  exact broadcastInDim_apply ![0] bcast_S16777216_S16777216x1_0 i (ix2 q u) (ix1 q) fun a => by
    match a with
    | ⟨0, _⟩ => rfl

/-- Row q of the start indices begins with the counted row integer. -/
theorem vstart_apply_row (i j : IVec S16777216 32) (q : Fin 16777216) :
    vstart i j (ix2 q (0 : Fin 2)) = wrap (i (ix1 q)) := by
  refine (Cert.RowOps.concatenate_cols_apply (vcol (vwrap i)) (vcol (vwrap j))
    concatenates_S16777216x1_S16777216x1_S16777216x2_d1 rfl q (0 : Fin 2)).trans ?_
  rw [dif_pos (show ((0 : Fin 2) : Fin 2).val < 1 by decide)]
  exact (vcol_apply (vwrap i) q _).trans (vwrap_apply i (ix1 q))

/-- Row q of the start indices ends with the counted column integer. -/
theorem vstart_apply_col (i j : IVec S16777216 32) (q : Fin 16777216) :
    vstart i j (ix2 q (1 : Fin 2)) = wrap (j (ix1 q)) := by
  refine (Cert.RowOps.concatenate_cols_apply (vcol (vwrap i)) (vcol (vwrap j))
    concatenates_S16777216x1_S16777216x1_S16777216x2_d1 rfl q (1 : Fin 2)).trans ?_
  rw [dif_neg (show ¬ ((1 : Fin 2) : Fin 2).val < 1 by decide)]
  exact (vcol_apply (vwrap j) q _).trans (vwrap_apply j (ix1 q))

/-! ## The gathered entry -/

/-- The table at two integers, each signed and clamped into 0 … 2047, is the table at the lines the counted
    integers are clamped to. -/
theorem clamp_pick (W : Tab.Idx → EReal) (a b a' b' : BitVec 32) (ha : a' = wrap a) (hb : b' = wrap b)
    (h₁ : min a'.toInt.toNat (2048 - 1) < 2048) (h₂ : min b'.toInt.toNat (2048 - 1) < 2048) :
    W (ix2 (⟨min a'.toInt.toNat (2048 - 1), h₁⟩ : Fin 2048) (⟨min b'.toInt.toNat (2048 - 1), h₂⟩ : Fin 2048))
      = W (ix2 (pick a) (pick b)) := by
  subst ha hb
  rfl

/-- The gather reads, at query q, the table at the lines the two counted integers are clamped to. -/
theorem vpick_apply (W : FVec Ideal S2048x2048 .f32) (i j : IVec S16777216 32) (q : Fin 16777216) :
    vpick W i j (ix1 q) = W (ix2 (pick (i (ix1 q))) (pick (j (ix1 q)))) := by
  refine (Cert.PointGather.gather_point_apply gather_S2048x2048_S16777216x2_S16777216_n_01_n_n_01_1_11 rfl rfl rfl rfl
    W (vstart i j) q (by decide) (by decide)).trans ?_
  exact clamp_pick W (i (ix1 q)) (j (ix1 q)) _ _ (vstart_apply_row i j q) (vstart_apply_col i j q) _ _

/-! ## A corner, and the four -/

theorem vtap_apply (W : FVec Ideal S2048x2048 .f32) (a b : FVec Ideal S16777216 .f32) (i j : IVec S16777216 32)
    (q : Fin 16777216) :
    vtap W a b i j (ix1 q) = tap W (a (ix1 q)) (b (ix1 q)) (i (ix1 q)) (j (ix1 q)) := by
  show (a (ix1 q) * b (ix1 q))
      * Scalar.select (IntOp.andi (vvalid i (ix1 q)) (vvalid j (ix1 q))) (vpick W i j (ix1 q))
          (splat (F := Ideal) 0x00000000#32 (ix1 q))
    = tap W (a (ix1 q)) (b (ix1 q)) (i (ix1 q)) (j (ix1 q))
  rw [vvalid_apply, vvalid_apply, vpick_apply, splat_apply]
  rfl

/-- THE TERM IS THE FOUR-TAP FORM, query by query. -/
theorem refTerm_eq (W : FVec Ideal S2048x2048 .f32) (X T : FVec Ideal S16777216 .f32) :
    refTerm W X T = viaTaps X T W := by
  funext j
  obtain ⟨q, rfl⟩ : ∃ q : Fin 16777216, j = ix1 q := ⟨j 0, eq_ix1 j⟩
  show ((vtap W (vcomp X) (vcomp T) (vcell X) (vcell T) (ix1 q) + vtap W (vcomp X) (vfrac T) (vcell X) (vnext T) (ix1 q))
        + vtap W (vfrac X) (vcomp T) (vnext X) (vcell T) (ix1 q))
      + vtap W (vfrac X) (vfrac T) (vnext X) (vnext T) (ix1 q)
    = fourTap (X (ix1 q)) (T (ix1 q)) W
  rw [vtap_apply, vtap_apply, vtap_apply, vtap_apply]
  simp only [vcomp_apply, vfrac_apply, vcell_apply, vnext_apply]
  rfl

end Cert.ReferenceIdeal.RTerm

end
-- ==== Proof.RefValue.lean ====
/-
  What the reference program leaves in its result array.
-/
import proofs.«103338_j71270687310572_1_alg».proof.Proof.RefRun
import proofs.«103338_j71270687310572_1_alg».proof.Proof.Spec
import proofs.«103338_j71270687310572_1_alg».proof.Proof.LibRowOps
import proofs.«103338_j71270687310572_1_alg».proof.Proof.LibPointGather
import proofs.«103338_j71270687310572_1_alg».proof.Proof.RefFold
import proofs.«103338_j71270687310572_1_alg».proof.Proof.RefPoint

noncomputable section

namespace Cert.ReferenceIdeal.RValue

open Cert.ReferenceIdeal Cert.ReferenceIdeal.Gen Cert.ReferenceIdeal.Ops Idealize.ShloMosaic Idealize.ShloMosaic.TcCoe Idealize.SL.Sem
  Idealize.ShloMosaic.StableHlo

/-- Every weakly fair execution of the reference program terminates with the result array holding, at query q, the four-tap
    form of the interpolation at (x q, t q) in the table, and the three argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0)
          = Cert.Bilinear.viaTaps (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  -- the run leaves every buffer at the operations' fold over the launch contents; the fold at the result is the
  -- four-corner term, which is the four-tap form query by query; the fold at an argument is the argument
  (θ_run (defs (F := Ideal)) _ _).mono
    (fun _ h c =>
      ⟨(h c main_v0).trans
          ((RTerm.after_result (F := Ideal) (launchContents m c)).trans
            (RTerm.refTerm_eq (launchContents m c (main_arg2 : DevRef τ sig)) (launchContents m c (main_arg0 : DevRef τ sig))
              (launchContents m c (main_arg1 : DevRef τ sig)))),
        (h c main_arg0).trans (RTerm.after_arg0 (F := Ideal) (launchContents m c)),
        (h c main_arg1).trans (RTerm.after_arg1 (F := Ideal) (launchContents m c)),
        (h c main_arg2).trans (RTerm.after_arg2 (F := Ideal) (launchContents m c))⟩)
    (run_main (F := Ideal) m ρ)

end Cert.ReferenceIdeal.RValue

end
-- ==== Proof.lean ====
/-
  Bilinear interpolation of 16777216 queries in a 2048 × 2048 table: a kernel that lays each query's two weights out as
  one-hot lines and multiplies them through the table, against the four-tap formula.

  The kernel's program leaves, at query q, the double sum over the table of (row line of x q) · table · (column line of
  t q); the reference leaves the sum over the four corners of weight · weight · entry, a corner off the table counting 0.
  For finite coordinates and a finite table these are one number (Spec.lean: a line with at most two nonzero places picks
  at most two entries out of a sum, and the product of the picks expands into the corners; the expansion is
  distributivity, so it is done over ℝ). The precondition says every input is finite (Finite.lean), which is where it is
  used. The frames of the two kernel programs are the generated ones; the reference's frame is its run with the result
  dropped; the idealization rewrote nothing, so there is nothing to preserve.
-/
import proofs.«103338_j71270687310572_1_alg».proof.Defs
import proofs.«103338_j71270687310572_1_alg».proof.Proof.Gen.Kernel
import proofs.«103338_j71270687310572_1_alg».proof.Proof.Gen.Kernel.Skeleton
import proofs.«103338_j71270687310572_1_alg».proof.Proof.Gen.Kernel.Launch
import proofs.«103338_j71270687310572_1_alg».proof.Proof.PointsK
import proofs.«103338_j71270687310572_1_alg».proof.Proof.FrameK
import proofs.«103338_j71270687310572_1_alg».proof.Proof.Gen.KernelIdeal
import proofs.«103338_j71270687310572_1_alg».proof.Proof.Gen.KernelIdeal.Skeleton
import proofs.«103338_j71270687310572_1_alg».proof.Proof.Gen.KernelIdeal.Launch
import proofs.«103338_j71270687310572_1_alg».proof.Proof.PointsKI
import proofs.«103338_j71270687310572_1_alg».proof.Proof.FrameKI
import proofs.«103338_j71270687310572_1_alg».proof.Proof.Gen.ReferenceIdeal
import proofs.«103338_j71270687310572_1_alg».proof.Proof.Gen.Pre_finite_inputs
import proofs.«103338_j71270687310572_1_alg».proof.Proof.Spec
import proofs.«103338_j71270687310572_1_alg».proof.Proof.Finite
import proofs.«103338_j71270687310572_1_alg».proof.Proof.KernelValue
import proofs.«103338_j71270687310572_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference's run with the result dropped. -/
theorem frame_referenceIdeal : Cert.frame_ReferenceIdeal := fun m ρ _ =>
  (θ_run Cert.ReferenceIdeal.defs _ _).mono (fun _ h c => (h c).2) (Cert.ReferenceIdeal.RValue.run m ρ)

/-- Both programs end with the one-hot form of the interpolation: the kernel's by its run, the reference's by its run, the
    arguments' agreement, and the law between the two forms at finite inputs. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.RValue.run m' ρ')
  rw [(hagree c).1, (hagree c).2.1, (hagree c).2.2]
  obtain ⟨hX, hT, hW⟩ := Cert.Finite.of_pre _ _ _ (hpre c)
  exact Cert.Bilinear.viaTaps_eq_viaLines _ _ _ hX hT hW

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
